-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : IVec S1x1600000 32 := (extractStridedSlice S1x1600000 ![0, 0] · slices_S2x1600000_S1x1600000_0_0) main_arg1
  let main_v75 : IVec S1600000 32 := shapeCast S1600000 main_v74 shapeCasts_S1x1600000_S1600000
  let main_c_28 : IVec S_ 32 := constantI S_ 32 0#32
  let main_v76 : IVec S1600000 32 := broadcastInDim S1600000 ![] bcast_S_S1600000 main_c_28
  let main_v77 : IVec S1600000 1 := cmpi .sge main_v75 main_v76
  let main_c_29 : IVec S_ 1 := constantI S_ 1 1#1
  let main_v78 : IVec S_ 1 := (fun x v => Host.reduce IntOp.andi x v reducesTo_S1600000_S_d0 h_S_) main_v77 main_c_29
  let main_v79 : IVec S_ 1 := andi main_v73 main_v78
  let main_v80 : IVec S1x1600000 32 := (extractStridedSlice S1x1600000 ![0, 0] · slices_S2x1600000_S1x1600000_0_0) main_arg1
  let main_v81 : IVec S1600000 32 := shapeCast S1600000 main_v80 shapeCasts_S1x1600000_S1600000
  let main_c_30 : IVec S_ 32 := constantI S_ 32 100000#32
  let main_v82 : IVec S1600000 32 := broadcastInDim S1600000 ![] bcast_S_S1600000 main_c_30
  let main_v83 : IVec S1600000 1 := cmpi .slt main_v81 main_v82
  let main_c_31 : IVec S_ 1 := constantI S_ 1 1#1
  let main_v84 : IVec S_ 1 := (fun x v => Host.reduce IntOp.andi x v reducesTo_S1600000_S_d0 h_S_) main_v83 main_c_31
  let main_v85 : IVec S_ 1 := andi main_v79 main_v84
  main_v85

def fn_part3 {F : FTy → Type} [FloatOps F] (main_arg1 : IVec S2x1600000 32) (main_arg12 : FVec F S128 .f32) (main_arg13 : FVec F S128 .f32) (main_arg14 : FVec F S128x64 .f32) (main_arg15 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg1 main_arg15 main_v63 main_v67

def fn_part2 {F : FTy → Type} [FloatOps F] (main_arg1 : IVec S2x1600000 32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128x64 .f32) (main_arg15 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128x64 .f32) (main_arg15 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128x64 .f32) (main_arg15 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S100000x128 : Shape := ⟨2, ![100000, 128]⟩
abbrev S1000x256 : Shape := ⟨2, ![1000, 256]⟩
abbrev S1000x128 : Shape := ⟨2, ![1000, 128]⟩
abbrev S1 : Shape := ⟨1, ![1]⟩
abbrev S1x1 : Shape := ⟨2, ![1, 1]⟩
abbrev S1600000x128 : Shape := ⟨2, ![1600000, 128]⟩
abbrev S1000x1 : Shape := ⟨2, ![1000, 1]⟩
abbrev S1x64 : Shape := ⟨2, ![1, 64]⟩
abbrev S100000x64 : Shape := ⟨2, ![100000, 64]⟩
abbrev S1000x64 : Shape := ⟨2, ![1000, 64]⟩

abbrev nBuf : Space → Nat
  | .hbm => 111
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000x1, .f32⟩
  | .hbm, ⟨22, _⟩ => ⟨S_, .f32⟩
  | .hbm, ⟨23, _⟩ => ⟨S100000x1, .f32⟩
  | .hbm, ⟨24, _⟩ => ⟨S1600000x1, .i32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1, .i32⟩
  | .hbm, ⟨43, _⟩ => ⟨S_, .i32⟩
  | .hbm, ⟨44, _⟩ => ⟨S1600000x1, .i32⟩
  | .hbm, ⟨45, _⟩ => ⟨S1600000x1, .i1⟩
  | .hbm, ⟨46, _⟩ => ⟨S1x1, .i32⟩
  | .hbm, ⟨47, _⟩ => ⟨S1600000x1, .i32⟩
  | .hbm, ⟨48, _⟩ => ⟨S1600000x1, .i1⟩
  | .hbm, ⟨49, _⟩ => ⟨S1600000x1, .i1⟩
  | .hbm, ⟨50, _⟩ => ⟨S_, .i1⟩
  | .hbm, ⟨51, _⟩ => ⟨S1600000, .i1⟩
  | .hbm, ⟨52, _⟩ => ⟨S1600000x128, .f32⟩
  | .hbm, ⟨53, _⟩ => ⟨S1600000x128, .i1⟩
  | .hbm, ⟨54, _⟩ => ⟨S_, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1, .i32⟩
  | .hbm, ⟨81, _⟩ => ⟨S_, .i32⟩
  | .hbm, ⟨82, _⟩ => ⟨S1600000x1, .i32⟩
  | .hbm, ⟨83, _⟩ => ⟨S1600000x1, .i1⟩
  | .hbm, ⟨84, _⟩ => ⟨S1x1, .i32⟩
  | .hbm, ⟨85, _⟩ => ⟨S1600000x1, .i32⟩
  | .hbm, ⟨86, _⟩ => ⟨S1600000x1, .i1⟩
  | .hbm, ⟨87, _⟩ => ⟨S1600000x1, .i1⟩
  | .hbm, ⟨88, _⟩ => ⟨S_, .i1⟩
  | .hbm, ⟨89, _⟩ => ⟨S1600000, .i1⟩
  | .hbm, ⟨90, _⟩ => ⟨S1600000x128, .f32⟩
  | .hbm, ⟨91, _⟩ => ⟨S1600000x128, .i1⟩
  | .hbm, ⟨92, _⟩ => ⟨S_, .f32⟩
  | .hbm, ⟨93, _⟩ => ⟨S1600000x128, .f32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x64, .f32⟩
  | .hbm, ⟨110, _⟩ => ⟨S100000x64, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x1, .f32⟩
  | .local _ .vmem, ⟨11, _⟩ => ⟨S1000x1, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x1, .f32⟩
  | .local _ .vmem, ⟨24, _⟩ => ⟨S1000x1, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S1000x64, .f32⟩
  | .local _ .vmem, ⟨33, _⟩ => ⟨S1000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v14 : Ref sig .tc := ⟨.hbm, 56, rfl⟩
abbrev main_cst_3 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_4 : Ref sig .tc := ⟨.hbm, 61, rfl⟩
abbrev main_v18 : Ref sig .tc := ⟨.hbm, 62, rfl⟩
abbrev main_cst_5 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_c_1 : Ref sig .tc := ⟨.hbm, 80, rfl⟩
abbrev main_call1_c_2 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_3 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_call1_cst : Ref sig .tc := ⟨.hbm, 92, rfl⟩
abbrev main_call1_v15 : Ref sig .tc := ⟨.hbm, 93, rfl⟩
abbrev main_v27 : Ref sig .tc := ⟨.hbm, 94, rfl⟩
abbrev main_cst_6 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_cst_7 : Ref sig .tc := ⟨.hbm, 99, rfl⟩
abbrev main_v31 : Ref sig .tc := ⟨.hbm, 100, rfl⟩
abbrev main_cst_8 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S1600000 : S_.BroadcastsInDim S1600000 (![] : Fin 0 → Fin S1600000.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S128 : S_.BroadcastsInDim S128 (![] : Fin 0 → Fin S128.rank)
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S100000x1_S1600000x1_S1600000x1_1_0_0_1_wf : ScatterDims.WF S100000x1 S1600000x1 S1600000x1 [1] [0] [0] 1
  dot_S1000x256_S256x128_S1000x128_1_0_0_1_n_n_wf : DotDims.WF S1000x256 S256x128 S1000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S100000x128.size a
  hwx0_3 : ∀ i : grid0.Coords, EltTy.bits .f32 = 32 ∨ (Rect.block (s := S100000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x128.size a ≤ S100000x128.size a
  hwx1_8 : ∀ i : grid1.Coords, EltTy.bits .f32 = 32 ∨ (Rect.block (s := S100000x128) S1000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S100000x128.size a
  hwx2_1 : ∀ i : grid2.Coords, EltTy.bits .f32 = 32 ∨ (Rect.block (s := S100000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .f32 = 32 ∨ (Rect.block (s := S100000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x64.size a ≤ S100000x64.size a
  hwx2_10 : ∀ i : grid2.Coords, EltTy.bits .f32 = 32 ∨ (Rect.block (s := S100000x64) S1000x64.size (cc2_transform_10 i) (hinb2_10 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v30) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v39) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v40) S1000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S_, .f32⟩
  | .hbm, ⟨41, _⟩ => ⟨S1600000x1, .f32⟩
  | .hbm, ⟨42, _⟩ => ⟨S_, .f32⟩
  | .hbm, ⟨43, _⟩ => ⟨S100000x1, .f32⟩
  | .hbm, ⟨44, _⟩ => ⟨S1600000x1, .i32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S_, .f32⟩
  | .hbm, ⟨85, _⟩ => ⟨S1600000x1, .f32⟩
  | .hbm, ⟨86, _⟩ => ⟨S_, .f32⟩
  | .hbm, ⟨87, _⟩ => ⟨S100000x1, .f32⟩
  | .hbm, ⟨88, _⟩ => ⟨S1600000x1, .i32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .f32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_c_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call2_cst : Ref sig .tc := ⟨.hbm, 112, rfl⟩
abbrev main_call2_v0 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute, entry by entry, on the extended reals.

  A node's hidden row after the input projection is relu(x·W + b). A SAGE layer takes, for node i, the sum `agg i` of its
  in-neighbours' rows and the node's own row `self i`, scales the sum by the reciprocal r i = 1 / max(deg i, 1) of the
  in-degree, and returns relu(((agg i · r i)·W_l + self i·W_r + b_l) · s + β) with s the batch-norm scale γ / √(1 + ε); the
  last layer is followed by the output projection h·W_o + b_o. Everything is a finite sum of products, a maximum with 0,
  and two divisions by numbers that are never zero (a degree clipped below at 1, a square root of a number above 1), so
  the only law needed between "divide by y" and "multiply by 1 / y" is the one for y ≠ 0.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An a × b array of extended reals, by index. -/
abbrev Mat (a b : Nat) := (⟨2, ![a, b]⟩ : Shape).Idx → EReal

/-- One entry of the input projection of one node: relu(∑ₖ xₖ·W[k, j] + b[j]). -/
def projAt (x : Fin 256 → EReal) (w : Mat 256 128) (b : Fin 128 → EReal) (j : Fin 128) : EReal :=
  max ((∑ k : Fin 256, x k * w (ix2 k j)) + b j) 0

/-- One entry of a SAGE layer of one node, from the node's neighbour sum `agg`, its own row `self` and its reciprocal
    degree `r`: relu((∑ₖ (aggₖ·r)·W_l[k, j] + ∑ₖ selfₖ·W_r[k, j] + b_l[j]) · s[j] + β[j]). -/
def sageAt (agg self : Fin 128 → EReal) (r : EReal) (wl : Mat 128 128) (bl : Fin 128 → EReal) (wr : Mat 128 128)
    (s be : Fin 128 → EReal) (j : Fin 128) : EReal :=
  max ((((∑ k : Fin 128, (agg k * r) * wl (ix2 k j)) + (∑ k : Fin 128, self k * wr (ix2 k j))) + bl j) * s j + be j) 0

/-- One entry of the output projection of one node: ∑ₖ hₖ·W_o[k, j] + b_o[j]. -/
def outAt (h : Fin 128 → EReal) (wo : Mat 128 64) (bo : Fin 64 → EReal) (j : Fin 64) : EReal :=
  (∑ k : Fin 128, h k * wo (ix2 k j)) + bo j

/-- The input projection of `n` nodes. -/
def proj {n : Nat} (x : Mat n 256) (w : Mat 256 128) (b : Fin 128 → EReal) : Mat n 128 :=
  fun i => projAt (fun k => x (ix2 (i 0) k)) w b (i 1)

/-- A SAGE layer on `n` nodes. -/
def sage {n : Nat} (agg self : Mat n 128) (r : Fin n → EReal) (wl : Mat 128 128) (bl : Fin 128 → EReal) (wr : Mat 128 128)
    (s be : Fin 128 → EReal) : Mat n 128 :=
  fun i => sageAt (fun k => agg (ix2 (i 0) k)) (fun k => self (ix2 (i 0) k)) (r (i 0)) wl bl wr s be (i 1)

/-- A SAGE layer followed by the output projection, on `n` nodes. -/
def sageOut {n : Nat} (agg self : Mat n 128) (r : Fin n → EReal) (wl : Mat 128 128) (bl : Fin 128 → EReal) (wr : Mat 128 128)
    (s be : Fin 128 → EReal) (wo : Mat 128 64) (bo : Fin 64 → EReal) : Mat n 64 :=
  fun i => outAt (fun k => sageAt (fun k' => agg (ix2 (i 0) k')) (fun k' => self (ix2 (i 0) k')) (r (i 0)) wl bl wr s be k) wo bo (i 1)

/-! ## Dividing by a nonzero number is multiplying by its reciprocal -/

/-- For y ≠ 0 the quotient x / y is x · y⁻¹ and 1 / y is y⁻¹, so x · (1 / y) = x / y — also at y = ±∞, where both are 0. -/
theorem mul_one_div (x y : EReal) (hy : y ≠ 0) : x * Ideal.div 1 y = Ideal.div x y := by
  unfold Ideal.div
  rw [if_neg hy, if_neg hy, one_mul]

/-- A number clipped below at 1 is not zero. -/
theorem max_one_ne_zero (d : EReal) : max d 1 ≠ 0 := by
  have h : (0 : EReal) < max d 1 := lt_of_lt_of_le zero_lt_one (le_max_right d 1)
  exact ne_of_gt h

/-- The word 0x3F800000 is 1. -/
theorem ofBits_one : Ideal.ofBits .f32 0x3F800000#32 = 1 := by
  simp [Ideal.ofBits, Ideal.ieee, -EReal.coe_mul]; norm_num

/-- The word 0x3F800054 is 1 + 84·2⁻²³, the single-precision number nearest 1.00001. -/
theorem ofBits_one_eps : Ideal.ofBits .f32 0x3F800054#32 = ((8388692 / 8388608 : ℝ) : EReal) := by
  simp [Ideal.ofBits, Ideal.ieee, -EReal.coe_mul]; norm_num

/-- Its square root is a positive real, so not zero. -/
theorem sqrt_one_eps_ne_zero : Ideal.sqrt (Ideal.ofBits .f32 0x3F800054#32) ≠ 0 := by
  rw [ofBits_one_eps]
  show (if (8388692 / 8388608 : ℝ) < 0 then (⊥ : EReal) else ((Real.sqrt (8388692 / 8388608 : ℝ) : ℝ) : EReal)) ≠ 0
  rw [if_neg (by norm_num)]
  have hpos : (0 : ℝ) < Real.sqrt (8388692 / 8388608 : ℝ) := Real.sqrt_pos.mpr (by norm_num)
  exact_mod_cast ne_of_gt hpos

end Cert.Spec

end
-- ==== Proof.Region0.lean ====
/-
  The first launch: the input projection. Each of its 100 grid points loads 1000 rows of x, all of W and the bias row, and
  writes relu(x·W + b) for those rows; the blocks tile the 100000 rows, so after the launch the output array is the
  projection of every row.
-/
import proofs.«420600_j19250043420814_3_alg».proof.Proof.Gen.KernelIdeal.Frame
import proofs.«420600_j19250043420814_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem Idealize.ShloMosaic.ValueIdx
open Idealize.ShloMosaic.Pipeline (Dat)

/- The lemmas of this launch live in a namespace of their own; only the closing theorem is stated outside it. -/
namespace InputProj

/-! ## The body's arithmetic at an entry -/

/-- The zero offsets of a whole-block access, however spelt. -/
theorem zero_offsets : (![0, 0] : Fin 2 → Nat) = fun _ => 0 := funext fun a => by fin_cases a <;> rfl

/-- The block product's left operand is read at the output's row … -/
theorem prod_lhs_row (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
/-- … and at the summation index on its second axis; -/
theorem prod_lhs_sum (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
/-- the right operand at the summation index on its first axis … -/
theorem prod_rhs_sum (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
/-- … and at the output's column. -/
theorem prod_rhs_col (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The block product into a zero accumulator, at row p and column q: ∑ₖ x[p, k] · w[k, q]. -/
theorem block_product_at (x : FVec Ideal S1000x256 .f32) (w : FVec Ideal S256x128 .f32) (p : Fin 1000) (q : Fin 128) :
    FloatOps.matmul dot_S1000x256_S256x128_S1000x128_1_0_0_1_n_n (some .fp32) x w (constant (F := Ideal) S1000x128 .f32 0x00000000#32) (ix2 p q)
      = ∑ k : Fin 256, x (ix2 p k) * w (ix2 k q) := by
  rw [Ideal.matmul_constant_zero_apply, ← Equiv.sum_comp (ValueIdx.contrEquiv1 dot_S1000x256_S256x128_S1000x128_1_0_0_1_n_n 256 rfl rfl).symm]
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 p q) ((ValueIdx.contrEquiv1 dot_S1000x256_S256x128_S1000x128_1_0_0_1_n_n 256 rfl rfl).symm k) = ix2 p k := funext fun a => Fin.ext (by
    match a with
    | ⟨0, _⟩ => exact prod_lhs_row _ _
    | ⟨1, _⟩ => exact (prod_lhs_sum _ _).trans hk)
  have er : dot_S1000x256_S256x128_S1000x128_1_0_0_1_n_n.rhsIdx (ix2 p q) ((ValueIdx.contrEquiv1 dot_S1000x256_S256x128_S1000x128_1_0_0_1_n_n 256 rfl rfl).symm k) = ix2 k q := funext fun a => Fin.ext (by
    match a with
    | ⟨0, _⟩ => exact (prod_rhs_sum _ _).trans hk
    | ⟨1, _⟩ => exact prod_rhs_col _ _)
  rw [el, er]

/-- The bias row broadcast down the 1000 rows, at row p and column q, is the bias at column q. -/
theorem bias_rows_at (b : Vec Ideal S1x128 .f32) (p : Fin 1000) (q : Fin 128) :
    broadcastTo S1000x128 b broadcasts_S1x128_S1000x128 (ix2 p q) = b (ix2 0 q) := by
  refine broadcastTo_apply b broadcasts_S1x128_S1000x128 (ix2 p q) (ix2 0 q) fun a => ?_
  match a with
  | ⟨0, _⟩ => rfl
  | ⟨1, _⟩ => rfl

/-- The body's result from its three loaded blocks: the projection of the block's 1000 rows. -/
theorem body_value (x : Vec Ideal S1000x256 .f32) (w : Vec Ideal S256x128 .f32) (b : Vec Ideal S1x128 .f32) :
    k0_pay1 (F := Ideal) x w b = Cert.Spec.proj (n := 1000) x w (fun j => b (ix2 0 j)) := by
  funext j
  obtain ⟨p, q, rfl⟩ : ∃ (p : Fin 1000) (q : Fin 128), j = ix2 p q := ⟨j 0, j 1, eq_ix2 j⟩
  unfold k0_pay1
  simp only [matmul]
  rw [maximumf_apply, addf_apply, broadcast_apply, shapeCast_self, bias_rows_at, block_product_at]
  show _ = max ((∑ k : Fin 256, x (ix2 p k) * w (ix2 k q)) + b (ix2 0 q)) 0
  rw [show (Scalar.ofBits .f32 0x00000000#32 : Ideal .f32) = 0 from Ideal.ofBits_zero_f32]

/- The buffers' contents when the launch is entered: any. -/
variable (V : (c : Dev nD) → (b : Ref sig .tc) → Buf (Elt Ideal) ((c : Thread nD τ).loc b))

/-! ## The projection of a block's rows is the projection of those rows of the array -/

/-- Entry (p, q) of the projection of a 1000-row block is entry (r, q) of the projection of the whole array, when the
    block's row p is the array's row r and the block's weights and bias are the array's. -/
theorem proj_of_rows (X : Cert.Spec.Mat 100000 256) (W : Cert.Spec.Mat 256 128) (B : Cert.Spec.Mat 1 128)
    (x : Cert.Spec.Mat 1000 256) (w : Cert.Spec.Mat 256 128) (b : Cert.Spec.Mat 1 128) (p : Fin 1000) (q : Fin 128) (r : Fin 100000)
    (hx : ∀ k : Fin 256, x (ix2 p k) = X (ix2 r k)) (hw : ∀ k : Fin 256, w (ix2 k q) = W (ix2 k q)) (hb : b (ix2 0 q) = B (ix2 0 q)) :
    Cert.Spec.proj (n := 1000) x w (fun j => b (ix2 0 j)) (ix2 p q)
      = Cert.Spec.proj (n := 100000) X W (fun j => B (ix2 0 j)) (ix2 r q) := by
  show max ((∑ k : Fin 256, x (ix2 p k) * w (ix2 k q)) + b (ix2 0 q)) 0 = max ((∑ k : Fin 256, X (ix2 r k) * W (ix2 k q)) + B (ix2 0 q)) 0
  rw [hb, Finset.sum_congr rfl fun k _ => by rw [hx k, hw k]]

/-! ## The blocks the grid points see -/

/-- The launch's index maps over the grid: point t takes block row t of x and of the output, and the one block of the
    weights and of the bias. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 100 points. -/
theorem point_lt (t : Fin cfg0.N) : t.val < 100 := Nat.lt_of_lt_of_eq t.isLt N_0

/-- Row p of point t's block is row 1000·t + p of the array. -/
def rowOf (t : Fin cfg0.N) (p : Fin 1000) : Fin 100000 :=
  ⟨t.val * 1000 + p.val, by have := point_lt t; have := p.isLt; omega⟩

/-- Point t's block of x holds rows 1000·t … 1000·t + 999 of x. -/
theorem x_block (c : Dev nD) (t : Fin cfg0.N) (p : Fin 1000) (k : Fin 256) :
    (iblk0 V c 0 t : Vec Ideal S1000x256 .f32) (ix2 p k) = (V c main_arg0 : S100000x256.Idx → Elt Ideal .f32) (ix2 (rowOf t p) k) := by
  obtain ⟨e0, e1, -⟩ := index_facts t
  show V c main_arg0 (((cfg0.win 0).blk t).view.emb (ix2 p k)) = V c main_arg0 (ix2 (rowOf t p) k)
  have h : ((cfg0.win 0).blk t).view.emb (ix2 p k) = ix2 (rowOf t p) k := by
    funext a; apply Fin.ext
    match a with
    | ⟨0, _⟩ => show win0_0.index t (0 : Fin 2) * 1000 + 1 * p.val = t.val * 1000 + p.val; rw [e0]; omega
    | ⟨1, _⟩ => show win0_0.index t (1 : Fin 2) * 256 + 1 * k.val = k.val; rw [e1]; omega
  rw [h]

/-- Every point's block of the weights is the whole weight array. -/
theorem w_block (c : Dev nD) (t : Fin cfg0.N) (k : Fin 256) (q : Fin 128) :
    (iblk0 V c 1 t : Vec Ideal S256x128 .f32) (ix2 k q) = (V c main_arg2 : S256x128.Idx → Elt Ideal .f32) (ix2 k q) := by
  obtain ⟨-, -, e0, e1, -⟩ := index_facts t
  show V c main_arg2 (((cfg0.win 1).blk t).view.emb (ix2 k q)) = V c main_arg2 (ix2 k q)
  have h : ((cfg0.win 1).blk t).view.emb (ix2 k q) = ix2 k q := by
    funext a; apply Fin.ext
    match a with
    | ⟨0, _⟩ => show win0_1.index t (0 : Fin 2) * 256 + 1 * k.val = k.val; rw [e0]; omega
    | ⟨1, _⟩ => show win0_1.index t (1 : Fin 2) * 128 + 1 * q.val = q.val; rw [e1]; omega
  rw [h]

/-- Every point's block of the bias is the whole bias row. -/
theorem b_block (c : Dev nD) (t : Fin cfg0.N) (q : Fin 128) :
    (iblk0 V c 2 t : Vec Ideal S1x128 .f32) (ix2 0 q) = (V c main_v12 : S1x128.Idx → Elt Ideal .f32) (ix2 0 q) := by
  obtain ⟨-, -, -, -, e0, e1, -⟩ := index_facts t
  show V c main_v12 (((cfg0.win 2).blk t).view.emb (ix2 0 q)) = V c main_v12 (ix2 0 q)
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [e0]
    | ⟨1, _⟩ => show win0_2.index t (1 : Fin 2) * 128 + 1 * q.val = q.val; rw [e1]; omega
  rw [h]

/-- Entry (p, q) of point t's output block sits at row 1000·t + p, column q of the output array. -/
theorem out_block_index (t : Fin cfg0.N) (p : Fin 1000) (q : Fin 128) :
    ((cfg0.win 3).blk t).view.emb (ix2 p q) = (ix2 (rowOf t p) q : S100000x128.Idx) := by
  obtain ⟨-, -, -, -, -, -, e0, e1⟩ := index_facts t
  funext a; apply Fin.ext
  match a with
  | ⟨0, _⟩ => show win0_3.index t (0 : Fin 2) * 1000 + 1 * p.val = t.val * 1000 + p.val; rw [e0]; omega
  | ⟨1, _⟩ => show win0_3.index t (1 : Fin 2) * 128 + 1 * q.val = q.val; rw [e1]; omega

/-- What point t writes back is block t of the projection of the whole arrays. -/
theorem written_block (c : Dev nD) (t : Fin cfg0.N) :
    (dat0 (F := Ideal) V c).flushed 3 t = ((cfg0.win 3).blk t).view.read (Elt Ideal)
      (Cert.Spec.proj (n := 100000) (V c main_arg0) (V c main_arg2) (fun j => V c main_v12 (ix2 0 j))) := by
  show (cfg0.win 3).cut (grid0.coords t) ((dat0 V c).after 3 t) = _
  rw [after0_3]
  unfold out0_3
  rw [View.canon_unit_zero zero_offsets]
  simp only [View.ld_unit_zero (S := S1000x256) zero_offsets, View.ld_unit_zero (S := S256x128) zero_offsets, View.ld_unit_zero (S := S1x128) zero_offsets]
  rw [body_value]
  funext y
  obtain ⟨p, q, rfl⟩ : ∃ (p : Fin 1000) (q : Fin 128), y = ix2 p q := ⟨y 0, y 1, eq_ix2 y⟩
  show Cert.Spec.proj (n := 1000) (iblk0 V c 0 t) (iblk0 V c 1 t) (fun j => iblk0 V c 2 t (ix2 0 j)) (ix2 p q)
    = Cert.Spec.proj (n := 100000) (V c main_arg0) (V c main_arg2) (fun j => V c main_v12 (ix2 0 j)) (((cfg0.win 3).blk t).view.emb (ix2 p q))
  rw [out_block_index]
  exact proj_of_rows (V c main_arg0) (V c main_arg2) (V c main_v12) (iblk0 V c 0 t) (iblk0 V c 1 t) (iblk0 V c 2 t) p q (rowOf t p)
    (fun k => x_block V c t p k) (fun k => w_block V c t k q) (b_block V c t q)

/-! ## The blocks tile the output array -/

/-- An index of the output array is in point t's block iff each coordinate is in the block's range on its axis. -/
theorem mem_block (t : Fin cfg0.N) (i : S100000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v13).slice (win0_3.rect t)).set ↔ _
  rw [View.set_slice_whole, Rect.mem_set_unit]
  exact Iff.rfl

/-- Row r of the output array is written by point r / 1000. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 1000 := ⟨⟨(i 0).val / 1000, by rw [show cfg0.N = 100 from N_0]; omega⟩, rfl⟩
  obtain ⟨-, -, -, -, -, -, e0, e1⟩ := index_facts t
  refine ⟨t, flush0_3 t, ?_⟩
  rw [mem_block]
  intro a
  match a with
  | ⟨0, _⟩ => show win0_3.index t (0 : Fin 2) * 1000 ≤ (i 0).val ∧ (i 0).val < win0_3.index t (0 : Fin 2) * 1000 + 1000; rw [e0, ht]; omega
  | ⟨1, _⟩ => show win0_3.index t (1 : Fin 2) * 128 ≤ (i 1).val ∧ (i 1).val < win0_3.index t (1 : Fin 2) * 128 + 128; rw [e1]; omega

end InputProj

/- The buffers' contents when the launch is entered: any. -/
variable (V : (c : Dev nD) → (b : Ref sig .tc) → Buf (Elt Ideal) ((c : Thread nD τ).loc b))

/-- After the first launch its output array holds relu(x·W + b), row by row, of the arrays the launch was entered with. -/
theorem region0_value (c : Dev nD) :
    (dat0 (F := Ideal) V c).arrAt 3 cfg0.N
      = Cert.Spec.proj (n := 100000) (V c main_arg0) (V c main_arg2) (fun j => V c main_v12 (ix2 0 j)) :=
  (dat0 (F := Ideal) V c).arrAt_eq_of_cover 3 _ (fun t _ => InputProj.written_block V c t) InputProj.covered

end Cert.KernelIdeal.Layers

end
-- ==== Proof.Region1.lean ====
/-
  The second launch: the first SAGE layer. Each of its 100 grid points loads 1000 rows of the neighbour sums, of the
  node rows and of the reciprocal degrees, the two weight matrices and the three parameter rows, and writes the layer's
  result for those rows; the blocks tile the 100000 rows.
-/
import proofs.«420600_j19250043420814_3_alg».proof.Proof.Gen.KernelIdeal.Frame
import proofs.«420600_j19250043420814_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem Idealize.ShloMosaic.ValueIdx
open Idealize.ShloMosaic.Pipeline (Dat)

namespace SageLayer

/-! ## One entry of a 1000 × 128 by 128 × 128 product -/

/-- The left operand's row coordinate is the output's row. -/
theorem lhs_blockDot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column coordinate is the contracted one. -/
theorem lhs_blockDot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's row coordinate is the contracted one. -/
theorem rhs_blockDot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- The right operand's column coordinate is the output's column. -/
theorem rhs_blockDot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Entry (p, q) of the product into a zero accumulator: the sum over k of l[p, k] · r[k, q]. -/
theorem blockDot_apply (l : FVec Ideal S1000x128 .f32) (r : FVec Ideal S128x128 .f32) (p : Fin 1000) (q : Fin 128) :
    matmul dot_S1000x128_S128x128_S1000x128_1_0_0_1_n_n (some .fp32) l r (constant (F := Ideal) S1000x128 .f32 0x00000000#32) (ix2 p q)
      = ∑ k : Fin 128, l (ix2 p k) * r (ix2 k q) := by
  refine (Ideal.matmul_constant_zero_apply dot_S1000x128_S128x128_S1000x128_1_0_0_1_n_n (some .fp32) l r (ix2 p q)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-! ## The two broadcasts at an entry -/

/-- A 1000 × 1 column spread over 128 columns: entry (p, q) is the column's entry p. -/
theorem colBroadcast_apply (x : FVec Ideal S1000x1 .f32) (p : Fin 1000) (q : Fin 128) :
    broadcastTo S1000x128 x broadcasts_S1000x1_S1000x128 (ix2 p q) = x (ix2 p 0) :=
  broadcastTo_apply x broadcasts_S1000x1_S1000x128 (ix2 p q) (ix2 p 0) (fun a => by
    match a with
    | ⟨0, _⟩ => rfl
    | ⟨1, _⟩ => rfl)

/-- A 1 × 128 row spread over 1000 rows: entry (p, q) is the row's entry q. -/
theorem rowBroadcast_apply (x : FVec Ideal S1x128 .f32) (p : Fin 1000) (q : Fin 128) :
    broadcastTo S1000x128 x broadcasts_S1x128_S1000x128 (ix2 p q) = x (ix2 0 q) :=
  broadcastTo_apply x broadcasts_S1x128_S1000x128 (ix2 p q) (ix2 0 q) (fun a => by
    match a with
    | ⟨0, _⟩ => rfl
    | ⟨1, _⟩ => rfl)

/-! ## The body's arithmetic is the SAGE layer of its blocks -/

/-- The stored block, entry by entry: the layer of the 1000 rows loaded, with the reciprocal degrees read off their
    column and the three parameter rows off their single row. -/
theorem payload_eq (x0 x1 : Vec Ideal S1000x128 .f32) (x2 : Vec Ideal S1000x1 .f32) (x3 x5 : Vec Ideal S128x128 .f32)
    (x4 x6 x7 : Vec Ideal S1x128 .f32) :
    k1_pay1 (F := Ideal) x0 x2 x1 x3 x5 x4 x6 x7
      = Cert.Spec.sage (n := 1000) x0 x1 (fun i => x2 (ix2 i 0)) x3 (fun j => x4 (ix2 0 j)) x5
          (fun j => x6 (ix2 0 j)) (fun j => x7 (ix2 0 j)) := by
  funext j
  obtain ⟨p, q, rfl⟩ : ∃ (p : Fin 1000) (q : Fin 128), j = ix2 p q := ⟨j 0, j 1, eq_ix2 j⟩
  unfold k1_pay1
  simp only [shapeCast_self]
  rw [maximumf_apply, addf_apply, mulf_apply, addf_apply, addf_apply, blockDot_apply, blockDot_apply, broadcast_apply,
    rowBroadcast_apply, rowBroadcast_apply, rowBroadcast_apply]
  simp only [mulf_apply, colBroadcast_apply]
  show _ = max _ 0
  rw [show Scalar.ofBits (F := Ideal) .f32 0x00000000#32 = 0 from Ideal.ofBits_zero_f32]

/- The buffers' contents when the launch is entered: any. -/
variable (V : (c : Dev nD) → (b : Ref sig .tc) → Buf (Elt Ideal) ((c : Thread nD τ).loc b))

/-! ## A block of rows of the layer -/

/-- If 1000 rows of the two row-indexed operands and of the reciprocal degrees are rows `row p` of larger arrays, the
    matrices and parameter rows being the same, then the layer of the small arrays is those rows of the layer of the
    large ones: an entry of the layer reads its own row of each operand only. -/
theorem sage_rows {A S : Cert.Spec.Mat 100000 128} {R : Fin 100000 → EReal} {wl wr : Cert.Spec.Mat 128 128}
    {bl s be : Fin 128 → EReal} {a b : Cert.Spec.Mat 1000 128} {r : Fin 1000 → EReal} {wl' wr' : Cert.Spec.Mat 128 128}
    {bl' s' be' : Fin 128 → EReal} (row : Fin 1000 → Fin 100000)
    (ha : ∀ p k, a (ix2 p k) = A (ix2 (row p) k)) (hb : ∀ p k, b (ix2 p k) = S (ix2 (row p) k))
    (hr : ∀ p, r p = R (row p)) (hwl : wl' = wl) (hbl : bl' = bl) (hwr : wr' = wr) (hs : s' = s) (hbe : be' = be)
    (p : Fin 1000) (q : Fin 128) :
    Cert.Spec.sage (n := 1000) a b r wl' bl' wr' s' be' (ix2 p q)
      = Cert.Spec.sage (n := 100000) A S R wl bl wr s be (ix2 (row p) q) := by
  subst hwl hbl hwr hs hbe
  show Cert.Spec.sageAt (fun k => a (ix2 p k)) (fun k => b (ix2 p k)) (r p) wl' bl' wr' s' be' q
    = Cert.Spec.sageAt (fun k => A (ix2 (row p) k)) (fun k => S (ix2 (row p) k)) (R (row p)) wl' bl' wr' s' be' q
  rw [show (fun k => a (ix2 p k)) = fun k => A (ix2 (row p) k) from funext (ha p),
    show (fun k => b (ix2 p k)) = fun k => S (ix2 (row p) k) from funext (hb p), hr p]

/-! ## Where each window's block sits in its array -/

theorem hz : (![0, 0] : Fin 2 → Nat) = fun _ => 0 := funext fun a => by fin_cases a <;> rfl

/-- The printed index maps, decided over the 100 grid points: the four row-tiled windows (the neighbour sums, the node
    rows, the reciprocal degrees, the output) are at block (t, 0) at point t, the five whole-array windows at (0, 0). -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- Row p of the block at point t is row 1000·t + p of the array. -/
def rowAt (t : Fin cfg1.N) (p : Fin 1000) : Fin 100000 :=
  ⟨t.val * 1000 + p.val, by have h : t.val < 100 := lt_of_lt_of_eq t.isLt N_1; have := p.isLt; omega⟩

/-- The neighbour sums' block: rows 1000·t … 1000·t + 999 of the array. -/
theorem read_agg (c : Dev nD) (t : Fin cfg1.N) (p : Fin 1000) (k : Fin 128) :
    (iblk1 V c 0 t : Vec Ideal S1000x128 .f32) (ix2 p k) = V c main_v17 (ix2 (rowAt t p) k) := by
  unfold iblk1
  rw [View.read_apply]
  show V c main_v17 (((cfg1.win 0).blk t).view.emb (ix2 p k)) = V c main_v17 (ix2 (rowAt t p) k)
  refine congrArg (V c main_v17) (funext fun a => Fin.ext ?_)
  obtain ⟨⟨e0, e1⟩, -⟩ := block_index t
  match a with
  | ⟨0, _⟩ => show win1_0.index t (0 : Fin 2) * 1000 + 1 * p.val = t.val * 1000 + p.val; rw [e0]; omega
  | ⟨1, _⟩ => show win1_0.index t (1 : Fin 2) * 128 + 1 * k.val = k.val; rw [e1]; omega

/-- The node rows' block: the same rows of their array. -/
theorem read_self (c : Dev nD) (t : Fin cfg1.N) (p : Fin 1000) (k : Fin 128) :
    (iblk1 V c 1 t : Vec Ideal S1000x128 .f32) (ix2 p k) = V c main_v13 (ix2 (rowAt t p) k) := by
  unfold iblk1
  rw [View.read_apply]
  show V c main_v13 (((cfg1.win 1).blk t).view.emb (ix2 p k)) = V c main_v13 (ix2 (rowAt t p) k)
  refine congrArg (V c main_v13) (funext fun a => Fin.ext ?_)
  obtain ⟨-, ⟨e0, e1⟩, -⟩ := block_index t
  match a with
  | ⟨0, _⟩ => show win1_1.index t (0 : Fin 2) * 1000 + 1 * p.val = t.val * 1000 + p.val; rw [e0]; omega
  | ⟨1, _⟩ => show win1_1.index t (1 : Fin 2) * 128 + 1 * k.val = k.val; rw [e1]; omega

/-- The reciprocal degrees' block: the same rows of their one-column array. -/
theorem read_recip (c : Dev nD) (t : Fin cfg1.N) (p : Fin 1000) :
    (iblk1 V c 2 t : Vec Ideal S1000x1 .f32) (ix2 p 0) = V c main_v11 (ix2 (rowAt t p) 0) := by
  unfold iblk1
  rw [View.read_apply]
  show V c main_v11 (((cfg1.win 2).blk t).view.emb (ix2 p 0)) = V c main_v11 (ix2 (rowAt t p) 0)
  refine congrArg (V c main_v11) (funext fun a => Fin.ext ?_)
  obtain ⟨-, -, ⟨e0, e1⟩, -⟩ := block_index t
  match a with
  | ⟨0, _⟩ => show win1_2.index t (0 : Fin 2) * 1000 + 1 * p.val = t.val * 1000 + p.val; rw [e0]; omega
  | ⟨1, _⟩ => show win1_2.index t (1 : Fin 2) * 1 + 1 * 0 = 0; rw [e1]

/-- The left weights' block is the whole matrix. -/
theorem read_wl (c : Dev nD) (t : Fin cfg1.N) : (iblk1 V c 3 t : Vec Ideal S128x128 .f32) = V c main_arg4 := by
  funext y
  unfold iblk1
  rw [View.read_apply]
  show V c main_arg4 (((cfg1.win 3).blk t).view.emb y) = V c main_arg4 y
  refine congrArg (V c main_arg4) (funext fun a => Fin.ext ?_)
  obtain ⟨-, -, -, ⟨e0, e1⟩, -⟩ := block_index t
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row's block is the whole row. -/
theorem read_bl (c : Dev nD) (t : Fin cfg1.N) : (iblk1 V c 4 t : Vec Ideal S1x128 .f32) = V c main_v24 := by
  funext y
  unfold iblk1
  rw [View.read_apply]
  show V c main_v24 (((cfg1.win 4).blk t).view.emb y) = V c main_v24 y
  refine congrArg (V c main_v24) (funext fun a => Fin.ext ?_)
  obtain ⟨-, -, -, -, ⟨e0, e1⟩, -⟩ := block_index t
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The right weights' block is the whole matrix. -/
theorem read_wr (c : Dev nD) (t : Fin cfg1.N) : (iblk1 V c 5 t : Vec Ideal S128x128 .f32) = V c main_arg6 := by
  funext y
  unfold iblk1
  rw [View.read_apply]
  show V c main_arg6 (((cfg1.win 5).blk t).view.emb y) = V c main_arg6 y
  refine congrArg (V c main_arg6) (funext fun a => Fin.ext ?_)
  obtain ⟨-, -, -, -, -, ⟨e0, e1⟩, -⟩ := block_index t
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The scale row's block is the whole row. -/
theorem read_scale (c : Dev nD) (t : Fin cfg1.N) : (iblk1 V c 6 t : Vec Ideal S1x128 .f32) = V c main_v23 := by
  funext y
  unfold iblk1
  rw [View.read_apply]
  show V c main_v23 (((cfg1.win 6).blk t).view.emb y) = V c main_v23 y
  refine congrArg (V c main_v23) (funext fun a => Fin.ext ?_)
  obtain ⟨-, -, -, -, -, -, ⟨e0, e1⟩, -⟩ := block_index t
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- The shift row's block is the whole row. -/
theorem read_shift (c : Dev nD) (t : Fin cfg1.N) : (iblk1 V c 7 t : Vec Ideal S1x128 .f32) = V c main_v25 := by
  funext y
  unfold iblk1
  rw [View.read_apply]
  show V c main_v25 (((cfg1.win 7).blk t).view.emb y) = V c main_v25 y
  refine congrArg (V c main_v25) (funext fun a => Fin.ext ?_)
  obtain ⟨-, -, -, -, -, -, -, ⟨e0, e1⟩, -⟩ := block_index t
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- Entry (p, q) of the output's block at point t is entry (1000·t + p, q) of the output array. -/
theorem out_entry (t : Fin cfg1.N) (p : Fin 1000) (q : Fin 128) :
    (((cfg1.win 8).blk t).view.emb (ix2 p q) : S100000x128.Idx) = ix2 (rowAt t p) q := by
  refine funext fun a => Fin.ext ?_
  obtain ⟨-, -, -, -, -, -, -, -, e0, e1⟩ := block_index t
  match a with
  | ⟨0, _⟩ => show win1_8.index t (0 : Fin 2) * 1000 + 1 * p.val = t.val * 1000 + p.val; rw [e0]; omega
  | ⟨1, _⟩ => show win1_8.index t (1 : Fin 2) * 128 + 1 * q.val = q.val; rw [e1]; omega

/-! ## What a point writes back, and the whole array -/

/-- Point t writes back rows 1000·t … 1000·t + 999 of the layer of the whole arrays: the body's result is the layer
    of the point's blocks, and those blocks are these rows of the arrays (the matrices and parameter rows whole). -/
theorem flushed_eq (c : Dev nD) (t : Fin cfg1.N) :
    (dat1 (F := Ideal) V c).flushed 8 t = ((cfg1.win 8).blk t).view.read (Elt Ideal)
      (Cert.Spec.sage (n := 100000) (V c main_v17) (V c main_v13) (fun i => V c main_v11 (ix2 i 0)) (V c main_arg4)
        (fun j => V c main_v24 (ix2 0 j)) (V c main_arg6) (fun j => V c main_v23 (ix2 0 j)) (fun j => V c main_v25 (ix2 0 j))) := by
  show (cfg1.win 8).cut (grid1.coords t) ((dat1 V c).after 8 t) = _
  rw [after1_8]
  unfold out1_8
  rw [View.canon_unit_zero hz]
  simp only [View.ld_unit_zero (S := S1000x128) hz, View.ld_unit_zero (S := S1000x1) hz,
    View.ld_unit_zero (S := S128x128) hz, View.ld_unit_zero (S := S1x128) hz]
  rw [payload_eq]
  refine funext fun (y : S1000x128.Idx) => ?_
  obtain ⟨p, q, rfl⟩ : ∃ (p : Fin 1000) (q : Fin 128), y = ix2 p q := ⟨y 0, y 1, eq_ix2 y⟩
  rw [View.read_apply, out_entry]
  exact sage_rows (A := V c main_v17) (S := V c main_v13) (R := fun i => V c main_v11 (ix2 i 0)) (wl := V c main_arg4)
    (bl := fun j => V c main_v24 (ix2 0 j)) (wr := V c main_arg6) (s := fun j => V c main_v23 (ix2 0 j))
    (be := fun j => V c main_v25 (ix2 0 j)) (rowAt t)
    (fun p k => read_agg V c t p k) (fun p k => read_self V c t p k) (fun p => read_recip V c t p)
    (read_wl V c t) (funext fun j => congrFun (read_bl V c t) (ix2 0 j)) (read_wr V c t)
    (funext fun j => congrFun (read_scale V c t) (ix2 0 j)) (funext fun j => congrFun (read_shift V c t) (ix2 0 j)) p q

/-- An index of the output array is in point t's block iff each coordinate is in the block's range on its axis. -/
theorem mem_block (t : Fin cfg1.N) (i : S100000x128.Idx) :
    i ∈ ((cfg1.win 8).blk t).view.set ↔ ∀ a : Fin 2, win1_8.index t a * S1000x128.size a ≤ (i a).val ∧ (i a).val < win1_8.index t a * S1000x128.size a + S1000x128.size a := by
  show i ∈ ((View.whole main_v26).slice (win1_8.rect t)).set ↔ _
  rw [View.set_slice_whole, Rect.mem_set_unit]
  exact Iff.rfl

/-- Every row r of the output array is written back by the point r / 1000. -/
theorem covered (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  obtain ⟨t, ht⟩ : ∃ t : Fin cfg1.N, t.val = (i 0).val / 1000 :=
    ⟨⟨(i 0).val / 1000, by rw [show cfg1.N = 100 from N_1]; omega⟩, rfl⟩
  refine ⟨t, flush1_8 t, ?_⟩
  rw [mem_block]
  obtain ⟨-, -, -, -, -, -, -, -, e0, e1⟩ := block_index t
  intro a
  match a with
  | ⟨0, _⟩ => show win1_8.index t (0 : Fin 2) * 1000 ≤ (i 0).val ∧ (i 0).val < win1_8.index t (0 : Fin 2) * 1000 + 1000; rw [e0]; omega
  | ⟨1, _⟩ => show win1_8.index t (1 : Fin 2) * 128 ≤ (i 1).val ∧ (i 1).val < win1_8.index t (1 : Fin 2) * 128 + 128; rw [e1]; omega

end SageLayer

variable (V : (c : Dev nD) → (b : Ref sig .tc) → Buf (Elt Ideal) ((c : Thread nD τ).loc b))

open SageLayer in
/-- After the second launch its output array holds the SAGE layer, row by row, of the arrays the launch was entered with:
    window 0 the neighbour sums, 1 the node rows, 2 the reciprocal degrees (a column), 3 and 5 the weights, 4 the bias row,
    6 the batch-norm scale row, 7 the batch-norm shift row. -/
theorem region1_value (c : Dev nD) :
    (dat1 (F := Ideal) V c).arrAt 8 cfg1.N
      = Cert.Spec.sage (n := 100000) (V c main_v17) (V c main_v13) (fun i => V c main_v11 (ix2 i 0)) (V c main_arg4)
          (fun j => V c main_v24 (ix2 0 j)) (V c main_arg6) (fun j => V c main_v23 (ix2 0 j)) (fun j => V c main_v25 (ix2 0 j)) :=
  (dat1 (F := Ideal) V c).arrAt_eq_of_cover 8 _ (fun t _ => flushed_eq V c t) covered

end Cert.KernelIdeal.Layers

end
-- ==== Proof.Region2.lean ====
/-
  The third launch: the second SAGE layer followed by the output projection. Each of its 100 grid points loads 1000 rows
  of the neighbour sums, of the node rows and of the reciprocal degrees, the weights and parameter rows of the layer and of
  the projection, and writes the projected result for those rows; the blocks tile the 100000 rows.
-/
import proofs.«420600_j19250043420814_3_alg».proof.Proof.Gen.KernelIdeal.Frame
import proofs.«420600_j19250043420814_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem Idealize.ShloMosaic.ValueIdx
open Idealize.ShloMosaic.Pipeline (Dat)

namespace SageOutLayer

/-! ## The two matrix products of the body, read at an entry -/

/-- The layer's product [1000,128] × [128,128]: the left operand's row is the output's row, -/
theorem lhs_layer_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- its column the summation index, -/
theorem lhs_layer_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- the right operand's row the summation index, -/
theorem rhs_layer_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- and its column the output's column. -/
theorem rhs_layer_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- So the layer's product into the zero array, at row p and column j, is ∑ₖ x[p, k]·w[k, j]. -/
theorem layer_matmul_apply (x : FVec Ideal S1000x128 .f32) (w : FVec Ideal S128x128 .f32) (p : Fin 1000) (j : Fin 128) :
    matmul dot_S1000x128_S128x128_S1000x128_1_0_0_1_n_n (some .fp32) x w (constant (F := Ideal) S1000x128 .f32 0x00000000#32) (ix2 p j)
      = ∑ k : Fin 128, x (ix2 p k) * w (ix2 k j) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p j) ((contrEquiv1 dot_S1000x128_S128x128_S1000x128_1_0_0_1_n_n 128 rfl rfl).symm k) = ix2 p k := funext fun a => Fin.ext (by
    match a with
    | ⟨0, _⟩ => exact lhs_layer_0 _ _
    | ⟨1, _⟩ => exact (lhs_layer_1 _ _).trans hk)
  have er : dot_S1000x128_S128x128_S1000x128_1_0_0_1_n_n.rhsIdx (ix2 p j) ((contrEquiv1 dot_S1000x128_S128x128_S1000x128_1_0_0_1_n_n 128 rfl rfl).symm k) = ix2 k j := funext fun a => Fin.ext (by
    match a with
    | ⟨0, _⟩ => exact (rhs_layer_0 _ _).trans hk
    | ⟨1, _⟩ => exact rhs_layer_1 _ _)
  rw [el, er]

/-- The output projection's product [1000,128] × [128,64]: the same four facts, -/
theorem lhs_out_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_out_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs_out_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs_out_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- and the same sum: at row p and column j it is ∑ₖ x[p, k]·w[k, j]. -/
theorem out_matmul_apply (x : FVec Ideal S1000x128 .f32) (w : FVec Ideal S128x64 .f32) (p : Fin 1000) (j : Fin 64) :
    matmul dot_S1000x128_S128x64_S1000x64_1_0_0_1_n_n (some .fp32) x w (constant (F := Ideal) S1000x64 .f32 0x00000000#32) (ix2 p j)
      = ∑ k : Fin 128, x (ix2 p k) * w (ix2 k j) := by
  simp only [matmul]
  rw [Ideal.matmul_constant_zero_apply, ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p j) ((contrEquiv1 dot_S1000x128_S128x64_S1000x64_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S1000x128_S128x64_S1000x64_1_0_0_1_n_n.rhsIdx (ix2 p j) ((contrEquiv1 dot_S1000x128_S128x64_S1000x64_1_0_0_1_n_n 128 rfl rfl).symm k) = ix2 k j := funext fun a => Fin.ext (by
    match a with
    | ⟨0, _⟩ => exact (rhs_out_0 _ _).trans hk
    | ⟨1, _⟩ => exact rhs_out_1 _ _)
  rw [el, er]

/-! ## The body's broadcasts, read at an entry -/

/-- A column [1000,1] spread over 128 columns reads its row's one entry. -/
theorem col_spread_apply {α : Type} (r : S1000x1.Idx → α) (h : S1000x1.Broadcasts S1000x128) (p : Fin 1000) (k : Fin 128) :
    broadcastTo S1000x128 r h (ix2 p k) = r (ix2 p 0) :=
  broadcastTo_apply r h (ix2 p k) (ix2 p 0) (fun a => by
    match a with
    | ⟨0, _⟩ => rfl
    | ⟨1, _⟩ => rfl)

/-- A row [1,128] spread over 1000 rows reads its column's one entry. -/
theorem row_spread_apply {α : Type} (b : S1x128.Idx → α) (h : S1x128.Broadcasts S1000x128) (p : Fin 1000) (k : Fin 128) :
    broadcastTo S1000x128 b h (ix2 p k) = b (ix2 0 k) :=
  broadcastTo_apply b h (ix2 p k) (ix2 0 k) (fun a => by
    match a with
    | ⟨0, _⟩ => rfl
    | ⟨1, _⟩ => rfl)

/-- A row [1,64] spread over 1000 rows reads its column's one entry. -/
theorem row64_spread_apply {α : Type} (b : S1x64.Idx → α) (h : S1x64.Broadcasts S1000x64) (p : Fin 1000) (k : Fin 64) :
    broadcastTo S1000x64 b h (ix2 p k) = b (ix2 0 k) :=
  broadcastTo_apply b h (ix2 p k) (ix2 0 k) (fun a => by
    match a with
    | ⟨0, _⟩ => rfl
    | ⟨1, _⟩ => rfl)

/-! ## The body's result, entry by entry -/

/-- The hidden rows the body forms before the output projection, at row p and column k: the SAGE layer's entry. -/
theorem hidden_apply (a s : FVec Ideal S1000x128 .f32) (r : FVec Ideal S1000x1 .f32) (wl wr : FVec Ideal S128x128 .f32)
    (bl sc be : FVec Ideal S1x128 .f32) (hc : S1000x1.Broadcasts S1000x128) (hr : S1x128.Broadcasts S1000x128)
    (p : Fin 1000) (k : Fin 128) :
    maximumf
        (addf
          (mulf
            (addf
              (addf
                (matmul dot_S1000x128_S128x128_S1000x128_1_0_0_1_n_n (some .fp32) (mulf a (broadcastTo S1000x128 r hc)) wl
                  (constant (F := Ideal) S1000x128 .f32 0x00000000#32))
                (matmul dot_S1000x128_S128x128_S1000x128_1_0_0_1_n_n (some .fp32) s wr
                  (constant (F := Ideal) S1000x128 .f32 0x00000000#32)))
              (broadcastTo S1000x128 bl hr))
            (broadcastTo S1000x128 sc hr))
          (broadcastTo S1000x128 be hr))
        (broadcast S1000x128 (FloatOps.ofBits (F := Ideal) .f32 0x00000000#32)) (ix2 p k)
      = Cert.Spec.sageAt (fun k' => a (ix2 p k')) (fun k' => s (ix2 p k')) (r (ix2 p 0)) wl (fun j => bl (ix2 0 j)) wr
          (fun j => sc (ix2 0 j)) (fun j => be (ix2 0 j)) k := by
  rw [maximumf_apply, addf_apply, mulf_apply, addf_apply, addf_apply, layer_matmul_apply, layer_matmul_apply,
    row_spread_apply, row_spread_apply, row_spread_apply, broadcast_apply]
  simp only [mulf_apply, col_spread_apply]
  unfold Cert.Spec.sageAt
  show max _ (Ideal.ofBits .f32 0x00000000#32) = _
  rw [Ideal.ofBits_zero_f32]

/-- The body's result at row p and column q: the output projection of that row of hidden entries. -/
theorem payload_apply (a s : Vec Ideal S1000x128 .f32) (r : Vec Ideal S1000x1 .f32) (wl wr : Vec Ideal S128x128 .f32)
    (bl sc be : Vec Ideal S1x128 .f32) (wo : Vec Ideal S128x64 .f32) (bo : Vec Ideal S1x64 .f32) (p : Fin 1000) (q : Fin 64) :
    k2_pay1 (F := Ideal) a r s wl wr bl sc be wo bo (ix2 p q)
      = Cert.Spec.outAt (fun k => Cert.Spec.sageAt (fun k' => a (ix2 p k')) (fun k' => s (ix2 p k')) (r (ix2 p 0)) wl
          (fun j => bl (ix2 0 j)) wr (fun j => sc (ix2 0 j)) (fun j => be (ix2 0 j)) k) wo (fun j => bo (ix2 0 j)) q := by
  unfold k2_pay1
  simp only [shapeCast_self]
  rw [addf_apply, out_matmul_apply, row64_spread_apply]
  simp only [hidden_apply]
  rfl

/-- So the body's result is the layer followed by the projection, on the 1000 rows of its blocks. -/
theorem payload_eq (a s : Vec Ideal S1000x128 .f32) (r : Vec Ideal S1000x1 .f32) (wl wr : Vec Ideal S128x128 .f32)
    (bl sc be : Vec Ideal S1x128 .f32) (wo : Vec Ideal S128x64 .f32) (bo : Vec Ideal S1x64 .f32) :
    k2_pay1 (F := Ideal) a r s wl wr bl sc be wo bo
      = Cert.Spec.sageOut (n := 1000) a s (fun i => r (ix2 i 0)) wl (fun j => bl (ix2 0 j)) wr (fun j => sc (ix2 0 j))
          (fun j => be (ix2 0 j)) wo (fun j => bo (ix2 0 j)) := by
  funext j
  obtain ⟨p, q, rfl⟩ : ∃ (p : Fin 1000) (q : Fin 64), j = ix2 p q := ⟨j 0, j 1, eq_ix2 j⟩
  rw [payload_apply]
  rfl

/-! ## The mathematics of one block: the rows of a block are rows of the arrays -/

/-- The layer followed by the projection on the 1000 rows of a block, whose rows are the rows `row p` of the 100000-row
    arrays and whose parameters are the arrays' own, is the same function of the arrays at those rows. -/
theorem sageOut_rows (A S : Cert.Spec.Mat 100000 128) (R : Fin 100000 → EReal) (WL WR : Cert.Spec.Mat 128 128)
    (BL SC BE : Fin 128 → EReal) (WO : Cert.Spec.Mat 128 64) (BO : Fin 64 → EReal)
    (a s : Cert.Spec.Mat 1000 128) (r : Fin 1000 → EReal) (wl wr : Cert.Spec.Mat 128 128)
    (bl sc be : Fin 128 → EReal) (wo : Cert.Spec.Mat 128 64) (bo : Fin 64 → EReal) (row : Fin 1000 → Fin 100000)
    (ha : ∀ p k, a (ix2 p k) = A (ix2 (row p) k)) (hs : ∀ p k, s (ix2 p k) = S (ix2 (row p) k)) (hr : ∀ p, r p = R (row p))
    (hwl : wl = WL) (hbl : bl = BL) (hwr : wr = WR) (hsc : sc = SC) (hbe : be = BE) (hwo : wo = WO) (hbo : bo = BO)
    (p : Fin 1000) (q : Fin 64) :
    Cert.Spec.sageOut (n := 1000) a s r wl bl wr sc be wo bo (ix2 p q)
      = Cert.Spec.sageOut (n := 100000) A S R WL BL WR SC BE WO BO (ix2 (row p) q) := by
  subst hwl hbl hwr hsc hbe hwo hbo
  show Cert.Spec.outAt (fun k => Cert.Spec.sageAt (fun k' => a (ix2 p k')) (fun k' => s (ix2 p k')) (r p) wl bl wr sc be k) wo bo q
    = Cert.Spec.outAt (fun k => Cert.Spec.sageAt (fun k' => A (ix2 (row p) k')) (fun k' => S (ix2 (row p) k')) (R (row p)) wl bl wr sc be k) wo bo q
  simp only [ha, hs, hr]

/-! ## The blocks the grid points read and write -/

/- The buffers' contents when the launch is entered: any. -/
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 100 grid points: the row-tiled windows (the neighbour sums, the node rows, the
    reciprocal degrees, the output) are at block (t, 0) at point t, the parameter windows at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Row p of grid point t's blocks is row 1000·t + p of the arrays. -/
def rowAt (t : Fin cfg2.N) (p : Fin 1000) : Fin 100000 :=
  ⟨t.val * 1000 + p.val, by
    have ht : t.val < grid2.N := t.isLt
    rw [N_2] at ht
    have hp := p.isLt
    omega⟩

/-- The neighbour sums' block at point t: its rows are the array's rows 1000·t + p. -/
theorem block_agg (c : Dev nD) (t : Fin cfg2.N) (p : Fin 1000) (k : Fin 128) :
    iblk2 V c 0 t (ix2 p k) = V c main_v30 (ix2 (rowAt t p) k) := by
  obtain ⟨e0, e1, -⟩ := index_facts t
  show V c main_v30 (((cfg2.win 0).blk t).view.emb (ix2 p k)) = V c main_v30 (ix2 (rowAt t p) k)
  refine congrArg _ (funext fun a => Fin.ext ?_)
  match a with
  | ⟨0, _⟩ => show win2_0.index t (0 : Fin 2) * 1000 + 1 * p.val = t.val * 1000 + p.val; omega
  | ⟨1, _⟩ => show win2_0.index t (1 : Fin 2) * 128 + 1 * k.val = k.val; omega

/-- The node rows' block at point t: its rows are the array's rows 1000·t + p. -/
theorem block_self (c : Dev nD) (t : Fin cfg2.N) (p : Fin 1000) (k : Fin 128) :
    iblk2 V c 1 t (ix2 p k) = V c main_v26 (ix2 (rowAt t p) k) := by
  obtain ⟨-, -, e0, e1, -⟩ := index_facts t
  show V c main_v26 (((cfg2.win 1).blk t).view.emb (ix2 p k)) = V c main_v26 (ix2 (rowAt t p) k)
  refine congrArg _ (funext fun a => Fin.ext ?_)
  match a with
  | ⟨0, _⟩ => show win2_1.index t (0 : Fin 2) * 1000 + 1 * p.val = t.val * 1000 + p.val; omega
  | ⟨1, _⟩ => show win2_1.index t (1 : Fin 2) * 128 + 1 * k.val = k.val; omega

/-- The reciprocal degrees' block at point t: its entries are the column's entries 1000·t + p. -/
theorem block_deg (c : Dev nD) (t : Fin cfg2.N) (p : Fin 1000) :
    iblk2 V c 2 t (ix2 p 0) = V c main_v11 (ix2 (rowAt t p) 0) := by
  obtain ⟨-, -, -, -, e0, e1, -⟩ := index_facts t
  show V c main_v11 (((cfg2.win 2).blk t).view.emb (ix2 p 0)) = V c main_v11 (ix2 (rowAt t p) 0)
  refine congrArg _ (funext fun a => Fin.ext ?_)
  match a with
  | ⟨0, _⟩ => show win2_2.index t (0 : Fin 2) * 1000 + 1 * p.val = t.val * 1000 + p.val; omega
  | ⟨1, _⟩ => show win2_2.index t (1 : Fin 2) * 1 + 1 * 0 = 0; omega

/-- The parameter windows' one block is the whole array, at every point: the layer's left weights, -/
theorem block_wl (c : Dev nD) (t : Fin cfg2.N) : (iblk2 V c 3 t : Vec Ideal S128x128 .f32) = V c main_arg9 := by
  obtain ⟨-, -, -, -, -, -, e0, e1, -⟩ := index_facts t
  funext y
  show V c main_arg9 (((cfg2.win 3).blk t).view.emb y) = V c main_arg9 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega
/-- its bias row, -/
theorem block_bl (c : Dev nD) (t : Fin cfg2.N) : (iblk2 V c 4 t : Vec Ideal S1x128 .f32) = V c main_v37 := by
  obtain ⟨-, -, -, -, -, -, -, -, e0, e1, -⟩ := index_facts t
  funext y
  show V c main_v37 (((cfg2.win 4).blk t).view.emb y) = V c main_v37 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega
/-- its right weights, -/
theorem block_wr (c : Dev nD) (t : Fin cfg2.N) : (iblk2 V c 5 t : Vec Ideal S128x128 .f32) = V c main_arg11 := by
  obtain ⟨-, -, -, -, -, -, -, -, -, -, e0, e1, -⟩ := index_facts t
  funext y
  show V c main_arg11 (((cfg2.win 5).blk t).view.emb y) = V c main_arg11 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega
/-- its scale row, -/
theorem block_sc (c : Dev nD) (t : Fin cfg2.N) : (iblk2 V c 6 t : Vec Ideal S1x128 .f32) = V c main_v36 := by
  obtain ⟨-, -, -, -, -, -, -, -, -, -, -, -, e0, e1, -⟩ := index_facts t
  funext y
  show V c main_v36 (((cfg2.win 6).blk t).view.emb y) = V c main_v36 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega
/-- its shift row, -/
theorem block_be (c : Dev nD) (t : Fin cfg2.N) : (iblk2 V c 7 t : Vec Ideal S1x128 .f32) = V c main_v38 := by
  obtain ⟨-, -, -, -, -, -, -, -, -, -, -, -, -, -, e0, e1, -⟩ := index_facts t
  funext y
  show V c main_v38 (((cfg2.win 7).blk t).view.emb y) = V c main_v38 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega
/-- the projection's weights, -/
theorem block_wo (c : Dev nD) (t : Fin cfg2.N) : (iblk2 V c 8 t : Vec Ideal S128x64 .f32) = V c main_arg14 := by
  obtain ⟨-, -, -, -, -, -, -, -, -, -, -, -, -, -, -, -, e0, e1, -⟩ := index_facts t
  funext y
  show V c main_arg14 (((cfg2.win 8).blk t).view.emb y) = V c main_arg14 y
  refine congrArg _ (funext fun a => Fin.ext ?_)
  match a with
  | ⟨0, _⟩ => show win2_8.index t (0 : Fin 2) * 128 + 1 * (y 0).val = (y 0).val; omega
  | ⟨1, _⟩ => show win2_8.index t (1 : Fin 2) * 64 + 1 * (y 1).val = (y 1).val; omega
/-- and its bias row. -/
theorem block_bo (c : Dev nD) (t : Fin cfg2.N) : (iblk2 V c 9 t : Vec Ideal S1x64 .f32) = V c main_v39 := by
  obtain ⟨-, -, -, -, -, -, -, -, -, -, -, -, -, -, -, -, -, -, e0, e1, -⟩ := index_facts t
  funext y
  show V c main_v39 (((cfg2.win 9).blk t).view.emb y) = V c main_v39 y
  refine congrArg _ (funext fun a => Fin.ext ?_)
  match a with
  | ⟨0, _⟩ => show win2_9.index t (0 : Fin 2) * 1 + 1 * (y 0).val = (y 0).val; omega
  | ⟨1, _⟩ => show win2_9.index t (1 : Fin 2) * 64 + 1 * (y 1).val = (y 1).val; omega

/-- The output's block at point t sits at the array's rows 1000·t + p. -/
theorem block_out (t : Fin cfg2.N) (p : Fin 1000) (q : Fin 64) :
    (((cfg2.win 10).blk t).view.emb (ix2 p q) : S100000x64.Idx) = ix2 (rowAt t p) q := by
  obtain ⟨-, -, -, -, -, -, -, -, -, -, -, -, -, -, -, -, -, -, -, -, e0, e1⟩ := index_facts t
  funext a; apply Fin.ext
  match a with
  | ⟨0, _⟩ => show win2_10.index t (0 : Fin 2) * 1000 + 1 * p.val = t.val * 1000 + p.val; omega
  | ⟨1, _⟩ => show win2_10.index t (1 : Fin 2) * 64 + 1 * q.val = q.val; omega

/-! ## From the blocks to the array -/

/-- What the output array ends holding: the layer followed by the projection, of the arrays the launch was entered with. -/
abbrev outRows (c : Dev nD) : Cert.Spec.Mat 100000 64 :=
  Cert.Spec.sageOut (n := 100000) (V c main_v30) (V c main_v26) (fun i => V c main_v11 (ix2 i 0)) (V c main_arg9)
    (fun j => V c main_v37 (ix2 0 j)) (V c main_arg11) (fun j => V c main_v36 (ix2 0 j)) (fun j => V c main_v38 (ix2 0 j))
    (V c main_arg14) (fun j => V c main_v39 (ix2 0 j))

/-- What grid point t writes back is block t of that array. -/
theorem flushed_eq (c : Dev nD) (t : Fin cfg2.N) :
    (dat2 (F := Ideal) V c).flushed 10 t = ((cfg2.win 10).blk t).view.read (Elt Ideal) (outRows V c) := by
  show (cfg2.win 10).cut (grid2.coords t) ((dat2 V c).after 10 t) = _
  rw [after2_10]
  unfold out2_10
  rw [View.canon_unit_zero zero_offsets]
  simp only [View.ld_unit_zero (S := S1000x128) zero_offsets, View.ld_unit_zero (S := S1000x1) zero_offsets,
    View.ld_unit_zero (S := S128x128) zero_offsets, View.ld_unit_zero (S := S1x128) zero_offsets,
    View.ld_unit_zero (S := S128x64) zero_offsets, View.ld_unit_zero (S := S1x64) zero_offsets]
  rw [payload_eq]
  funext j
  obtain ⟨p, q, rfl⟩ : ∃ (p : Fin 1000) (q : Fin 64), j = ix2 p q := ⟨j 0, j 1, eq_ix2 j⟩
  show Cert.Spec.sageOut (n := 1000) (iblk2 V c 0 t) (iblk2 V c 1 t) (fun i => iblk2 V c 2 t (ix2 i 0)) (iblk2 V c 3 t)
      (fun j => iblk2 V c 4 t (ix2 0 j)) (iblk2 V c 5 t) (fun j => iblk2 V c 6 t (ix2 0 j)) (fun j => iblk2 V c 7 t (ix2 0 j))
      (iblk2 V c 8 t) (fun j => iblk2 V c 9 t (ix2 0 j)) (ix2 p q)
    = outRows V c (((cfg2.win 10).blk t).view.emb (ix2 p q))
  rw [block_out t p q]
  exact sageOut_rows _ _ _ _ _ _ _ _ _ _ _ _ _ _ _ _ _ _ _ _ (rowAt t) (block_agg V c t) (block_self V c t) (block_deg V c t)
    (block_wl V c t) (by rw [block_bl V c t]) (block_wr V c t) (by rw [block_sc V c t]) (by rw [block_be V c t])
    (block_wo V c t) (by rw [block_bo V c t]) p q

/-- A row and column of the array are in point t's block iff each is in the block's range on its axis. -/
theorem mem_block (t : Fin cfg2.N) (i : S100000x64.Idx) :
    i ∈ ((cfg2.win 10).blk t).view.set ↔ ∀ a : Fin 2, win2_10.index t a * S1000x64.size a ≤ (i a).val ∧ (i a).val < win2_10.index t a * S1000x64.size a + S1000x64.size a := by
  show i ∈ ((View.whole main_v40).slice (win2_10.rect t)).set ↔ _
  rw [View.set_slice_whole, Rect.mem_set_unit]
  exact Iff.rfl

/-- The blocks tile the array: row r is in the block of point r / 1000, which writes back. -/
theorem blocks_cover (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  have hN : grid2.N = 100 := N_2
  have ht : (i 0).val / 1000 < cfg2.N := by show (i 0).val / 1000 < grid2.N; omega
  refine ⟨⟨(i 0).val / 1000, ht⟩, flush2_10 _, ?_⟩
  rw [mem_block]
  obtain ⟨-, -, -, -, -, -, -, -, -, -, -, -, -, -, -, -, -, -, -, -, e0, e1⟩ := index_facts ⟨(i 0).val / 1000, ht⟩
  have e0' : win2_10.index ⟨(i 0).val / 1000, ht⟩ (0 : Fin 2) = (i 0).val / 1000 := e0
  intro a
  match a with
  | ⟨0, _⟩ => show win2_10.index ⟨(i 0).val / 1000, ht⟩ (0 : Fin 2) * 1000 ≤ (i 0).val ∧ (i 0).val < win2_10.index ⟨(i 0).val / 1000, ht⟩ (0 : Fin 2) * 1000 + 1000; omega
  | ⟨1, _⟩ => show win2_10.index ⟨(i 0).val / 1000, ht⟩ (1 : Fin 2) * 64 ≤ (i 1).val ∧ (i 1).val < win2_10.index ⟨(i 0).val / 1000, ht⟩ (1 : Fin 2) * 64 + 64; omega

end SageOutLayer

variable (V : (c : Dev nD) → (b : Ref sig .tc) → Buf (Elt Ideal) ((c : Thread nD τ).loc b))

open SageOutLayer in
/-- After the third launch its output array holds the SAGE layer followed by the output projection, row by row, of the
    arrays the launch was entered with: windows 0 to 7 as in the second launch, 8 the output weights, 9 the output bias row. -/
theorem region2_value (c : Dev nD) :
    (dat2 (F := Ideal) V c).arrAt 10 cfg2.N
      = Cert.Spec.sageOut (n := 100000) (V c main_v30) (V c main_v26) (fun i => V c main_v11 (ix2 i 0)) (V c main_arg9)
          (fun j => V c main_v37 (ix2 0 j)) (V c main_arg11) (fun j => V c main_v36 (ix2 0 j)) (fun j => V c main_v38 (ix2 0 j))
          (V c main_arg14) (fun j => V c main_v39 (ix2 0 j)) :=
  (dat2 (F := Ideal) V c).arrAt_eq_of_cover 10 (outRows V c) (fun t _ => flushed_eq V c t) blocks_cover

end Cert.KernelIdeal.Layers

end
-- ==== Proof.KernelGlue.lean ====
/-
  The host-side operations the kernel's program runs between its three launches, each named once as a function of what it
  reads: the source and destination node of every edge (the two rows of the edge list), the reciprocal in-degree
  1 / max(deg, 1), the row gather with its out-of-range fill, the sum of the gathered rows over each destination node, and
  the batch-norm scale γ · (1 / √(1 + ε)).
-/
import proofs.«420600_j19250043420814_3_alg».proof.Proof.Gen.KernelIdeal

noncomputable section

namespace Cert.KernelIdeal.Glue

open Cert.KernelIdeal Cert.KernelIdeal.Gen Idealize.ShloMosaic

variable {F : FTy → Type} [FloatOps F]

/-- The source node of every edge: row 0 of the edge list. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The destination node of every edge: row 1 of the edge list. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The in-degree of every node clipped below at 1: the sum of a 1 per edge over the edge's destination, then max with 1. -/
def degMax (d : (⟨S1600000, .i32⟩ : BufTy).Contents (Elt F)) : (⟨S100000x1, .f32⟩ : BufTy).Contents (Elt F) :=
  maximumf
    (Host.scatterAdd scatter_S100000x1_S1600000x1_S1600000x1_1_0_0_1
      (broadcastInDim S100000x1 ![] bcast_S_S100000x1 (constant S_ .f32 0x00000000#32))
      (broadcastInDim S1600000x1 ![0] bcast_S1600000_S1600000x1_0 d)
      (broadcastInDim S1600000x1 ![] bcast_S_S1600000x1 (constant S_ .f32 0x3F800000#32)))
    (broadcastInDim S100000x1 ![] bcast_S_S100000x1 (constant S_ .f32 0x3F800000#32))

/-- The reciprocal clipped in-degree, 1 / max(deg, 1). -/
def invDeg (d : (⟨S1600000, .i32⟩ : BufTy).Contents (Elt F)) : (⟨S100000x1, .f32⟩ : BufTy).Contents (Elt F) :=
  Host.divf (broadcastInDim S100000x1 ![] bcast_S_S100000x1 (constant S_ .f32 0x3F800000#32)) (degMax d)

/-- An index list with negative entries counted from the end (i < 0 ↦ i + 100000), as a column of start indices. -/
def normIdx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge, whether its start index names a row: 0 ≤ i ∧ i ≤ 99999. -/
def inRows (idx : (⟨S1600000x1, .i32⟩ : BufTy).Contents (Elt F)) : (⟨S1600000, .i1⟩ : BufTy).Contents (Elt F) :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The rows of `h` at the start indices (clamped into range by the gather itself). -/
def gatherRows (h : (⟨S100000x128, .f32⟩ : BufTy).Contents (Elt F)) (idx : (⟨S1600000x1, .i32⟩ : BufTy).Contents (Elt F)) :
    (⟨S1600000x128, .f32⟩ : BufTy).Contents (Elt F) :=
  Host.gather gather_S100000x128_S1600000x1_S1600000x128_1_0_n_n_0_1_1128 h idx

/-- The kernel's row gather: the row of `h` at every edge's source, and the fill word 0x7FC00000 where the source names no row. -/
def takeFill (h : (⟨S100000x128, .f32⟩ : BufTy).Contents (Elt F)) (s : (⟨S1600000, .i32⟩ : BufTy).Contents (Elt F)) :
    (⟨S1600000x128, .f32⟩ : BufTy).Contents (Elt F) :=
  select (broadcastInDim S1600000x128 ![0] bcast_S1600000_S1600000x128_0 (inRows (normIdx s)))
    (gatherRows h (normIdx s))
    (broadcastInDim S1600000x128 ![] bcast_S_S1600000x128 (constant S_ .f32 0x7FC00000#32))

/-- The sum of the per-edge rows over each destination node, from zero. -/
def segSum (d : (⟨S1600000, .i32⟩ : BufTy).Contents (Elt F)) (msgs : (⟨S1600000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) msgs

/-- A length-128 vector as a 1 × 128 row. -/
def row (b : (⟨S128, .f32⟩ : BufTy).Contents (Elt F)) : (⟨S1x128, .f32⟩ : BufTy).Contents (Elt F) :=
  shapeCast S1x128 b shapeCasts_S128_S1x128

/-- A length-64 vector as a 1 × 64 row. -/
def row64 (b : (⟨S64, .f32⟩ : BufTy).Contents (Elt F)) : (⟨S1x64, .f32⟩ : BufTy).Contents (Elt F) :=
  shapeCast S1x64 b shapeCasts_S64_S1x64

/-- The batch-norm scale γ · (1 / √(1 + ε)) as a 1 × 128 row, 1 + ε the word 0x3F800054. -/
def bnScale (g : (⟨S128, .f32⟩ : BufTy).Contents (Elt F)) : (⟨S1x128, .f32⟩ : BufTy).Contents (Elt F) :=
  row (mulf g (broadcastInDim S128 ![] bcast_S_S128
    (id (Host.divf (constant S_ .f32 0x3F800000#32) (Host.sqrt (constant S_ .f32 0x3F800054#32))))))

end Cert.KernelIdeal.Glue

end
-- ==== Proof.KernelFold.lean ====
/-
  What every launch finds in the buffers it reads. Between the launches the program runs host operations; the contents
  at a launch's entry are the launch memory pushed through those operations and through the earlier launches'
  write-backs. Read at the buffers each launch's windows stage, they are: the arguments themselves; the bias and
  batch-norm vectors as rows; the reciprocal clipped in-degree; the batch-norm scale; the earlier launch's output; and the
  per-destination sum of the rows that output holds at every edge's source (gathered with the out-of-range fill).
-/
import proofs.«420600_j19250043420814_3_alg».proof.Proof.Gen.KernelIdeal.Frame
import proofs.«420600_j19250043420814_3_alg».proof.Proof.KernelGlue
import Idealize.ShloMosaic.Lib.StableHlo.Run

set_option maxRecDepth 16384

noncomputable section

namespace Cert.KernelIdeal.Layers

open Cert.KernelIdeal Cert.KernelIdeal.Gen Cert.KernelIdeal.Glue Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The node rows the first launch leaves. -/
abbrev H0 (c : Dev nD) := (dat0 (V1 m ρ) c).arrAt 3 cfg0.N
/-- The node rows the second launch leaves. -/
abbrev H1 (c : Dev nD) := (dat1 (V4 m ρ) c).arrAt 8 cfg1.N

/-! # Auxiliary facts -/

namespace Fold

/-! ## A buffer a host stretch does not write keeps its contents

Each stretch writes the references listed here and no other; a reference outside the list reads, after the stretch,
what it read before. -/

/-- The references the stretch before the first launch writes. -/
def wr0 : List (Ref sig .tc) :=
  [main_v0, main_v1, main_v2, main_v3, main_cst, main_v4, main_cst_0, main_v5, main_v6, main_v7, main_cst_1, main_v8,
   main_v9, main_cst_2, main_v10, main_v11, main_v12]
/-- The references the first row gather writes. -/
def wr1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10,
   main_call0_v11, main_call0_c_3, main_call0_v12, main_call0_v13, main_call0_v14, main_call0_cst, main_call0_v15, main_v14]
/-- The references the stretch between the first gather and the second launch writes. -/
def wr1_1 : List (Ref sig .tc) :=
  [main_cst_3, main_v15, main_v16, main_v17, main_cst_4, main_v18, main_cst_5, main_v19, main_v20, main_v21, main_v22,
   main_v23, main_v24, main_v25]
/-- The references the second row gather writes. -/
def wr2 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10,
   main_call1_v11, main_call1_c_3, main_call1_v12, main_call1_v13, main_call1_v14, main_call1_cst, main_call1_v15, main_v27]
/-- The references the stretch between the second gather and the third launch writes. -/
def wr2_1 : List (Ref sig .tc) :=
  [main_cst_6, main_v28, main_v29, main_v30, main_cst_7, main_v31, main_cst_8, main_v32, main_v33, main_v34, main_v35,
   main_v36, main_v37, main_v38, main_v39]

/-- Every operation of a literal stretch writes one reference, and that reference is in the literal list. -/
local macro "writes_in_list" : tactic => `(tactic| (
  simp only [hostOps0, hostOps1, hostOps1_1, hostOps2, hostOps2_1, main_call0_call0, main_call1_call0, List.Forall,
    StableHlo.nullary_writes, StableHlo.unary_writes, StableHlo.binary_writes, StableHlo.ternary_writes,
    StableHlo.reshape_writes, Finset.singleton_subset_iff, List.mem_toFinset]
  repeat' apply And.intro
  all_goals exact List.mem_map.mpr ⟨_, by decide, rfl⟩))

theorem keep0 (V : Valuation τ sig (Elt F)) {r : Ref sig .tc} (hr : r ∉ wr0) :
    StableHlo.after hostOps0 V (Proc.devRef .tc r) = V (Proc.devRef .tc r) :=
  StableHlo.after_of_writes_sub (W := wr0) hostOps0 V (by writes_in_list) hr
theorem keep1 (V : Valuation τ sig (Elt F)) {r : Ref sig .tc} (hr : r ∉ wr1) :
    StableHlo.after hostOps1 V (Proc.devRef .tc r) = V (Proc.devRef .tc r) :=
  StableHlo.after_of_writes_sub (W := wr1) hostOps1 V (by writes_in_list) hr
theorem keep1_1 (V : Valuation τ sig (Elt F)) {r : Ref sig .tc} (hr : r ∉ wr1_1) :
    StableHlo.after hostOps1_1 V (Proc.devRef .tc r) = V (Proc.devRef .tc r) :=
  StableHlo.after_of_writes_sub (W := wr1_1) hostOps1_1 V (by writes_in_list) hr
theorem keep2 (V : Valuation τ sig (Elt F)) {r : Ref sig .tc} (hr : r ∉ wr2) :
    StableHlo.after hostOps2 V (Proc.devRef .tc r) = V (Proc.devRef .tc r) :=
  StableHlo.after_of_writes_sub (W := wr2) hostOps2 V (by writes_in_list) hr
theorem keep2_1 (V : Valuation τ sig (Elt F)) {r : Ref sig .tc} (hr : r ∉ wr2_1) :
    StableHlo.after hostOps2_1 V (Proc.devRef .tc r) = V (Proc.devRef .tc r) :=
  StableHlo.after_of_writes_sub (W := wr2_1) hostOps2_1 V (by writes_in_list) hr

/-! ## Walking a buffer back to the launch memory

A reference no stretch so far writes and no launch so far stages holds, at each boundary, what the program was
launched with. -/

section Walk

variable (c : Dev nD)

theorem W1_keep {r : Ref sig .tc} (h0 : r ∉ wr0) :
    W1 m ρ c (Proc.devRef .tc r) = m ((c : Thread nD τ).loc r) := keep0 _ h0

theorem W2_keep {r : Ref sig .tc} (h0 : r ∉ wr0) (ha0 : ∀ w, Pipeline.arrRef spec0 w ≠ r) :
    W2 m ρ c (Proc.devRef .tc r) = m ((c : Thread nD τ).loc r) :=
  (W2_of_ne m ρ c r ha0).trans (W1_keep m ρ c h0)

theorem W4_W2 {r : Ref sig .tc} (h1 : r ∉ wr1) (h11 : r ∉ wr1_1) :
    W4 m ρ c (Proc.devRef .tc r) = W2 m ρ c (Proc.devRef .tc r) :=
  (keep1_1 _ h11).trans (keep1 _ h1)

theorem W4_keep {r : Ref sig .tc} (h0 : r ∉ wr0) (ha0 : ∀ w, Pipeline.arrRef spec0 w ≠ r) (h1 : r ∉ wr1) (h11 : r ∉ wr1_1) :
    W4 m ρ c (Proc.devRef .tc r) = m ((c : Thread nD τ).loc r) :=
  (W4_W2 m ρ c h1 h11).trans (W2_keep m ρ c h0 ha0)

theorem W5_keep {r : Ref sig .tc} (h0 : r ∉ wr0) (ha0 : ∀ w, Pipeline.arrRef spec0 w ≠ r) (h1 : r ∉ wr1) (h11 : r ∉ wr1_1)
    (ha1 : ∀ w, Pipeline.arrRef spec1 w ≠ r) :
    W5 m ρ c (Proc.devRef .tc r) = m ((c : Thread nD τ).loc r) :=
  (W5_of_ne m ρ c r ha1).trans (W4_keep m ρ c h0 ha0 h1 h11)

theorem W7_W5 {r : Ref sig .tc} (h2 : r ∉ wr2) (h21 : r ∉ wr2_1) :
    W7 m ρ c (Proc.devRef .tc r) = W5 m ρ c (Proc.devRef .tc r) :=
  (keep2_1 _ h21).trans (keep2 _ h2)

theorem W7_keep {r : Ref sig .tc} (h0 : r ∉ wr0) (ha0 : ∀ w, Pipeline.arrRef spec0 w ≠ r) (h1 : r ∉ wr1) (h11 : r ∉ wr1_1)
    (ha1 : ∀ w, Pipeline.arrRef spec1 w ≠ r) (h2 : r ∉ wr2) (h21 : r ∉ wr2_1) :
    W7 m ρ c (Proc.devRef .tc r) = m ((c : Thread nD τ).loc r) :=
  (W7_W5 m ρ c h2 h21).trans (W5_keep m ρ c h0 ha0 h1 h11 ha1)

/-! ### The edge list's two rows and the reciprocal in-degree, computed once before the first launch -/

theorem W1_v1 : W1 m ρ c (Proc.devRef .tc main_v1) = srcOf (m ((c : Thread nD τ).loc main_arg1)) := by
  dsimp only [W1, hostOps0]
  after_results_simp
  rfl
theorem W1_v3 : W1 m ρ c (Proc.devRef .tc main_v3) = dstOf (m ((c : Thread nD τ).loc main_arg1)) := by
  dsimp only [W1, hostOps0]
  after_results_simp
  rfl
theorem W1_v11 : W1 m ρ c (Proc.devRef .tc main_v11) = invDeg (dstOf (m ((c : Thread nD τ).loc main_arg1))) := by
  dsimp only [W1, hostOps0]
  after_results_simp
  rfl

theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)
theorem W5_v1 : W5 m ρ c (Proc.devRef .tc main_v1) = srcOf (m ((c : Thread nD τ).loc main_arg1)) :=
  (W5_of_ne m ρ c main_v1 (by decide)).trans ((W4_W2 m ρ c (by decide) (by decide)).trans (W2_v1 m ρ c))
theorem W5_v3 : W5 m ρ c (Proc.devRef .tc main_v3) = dstOf (m ((c : Thread nD τ).loc main_arg1)) :=
  (W5_of_ne m ρ c main_v3 (by decide)).trans ((W4_W2 m ρ c (by decide) (by decide)).trans (W2_v3 m ρ c))
theorem W4_v11 : W4 m ρ c (Proc.devRef .tc main_v11) = invDeg (dstOf (m ((c : Thread nD τ).loc main_arg1))) :=
  (W4_W2 m ρ c (by decide) (by decide)).trans ((W2_of_ne m ρ c main_v11 (by decide)).trans (W1_v11 m ρ c))

end Walk

/-! ### The typed references of the row gather carry their contents unchanged

A typed reference moves contents between the value's type and the buffer's own along an equation of types; there and
back is the identity, and at a literal reference, whose two types are the same, each way is. -/

theorem ofBuf_toBuf {T : BufTy} (x : StableHlo.TRef sig T) (v : T.Contents (Elt F)) : x.ofBuf (x.toBuf v) = v := by
  obtain ⟨r, h, _, _⟩ := x
  subst h
  rfl

theorem ofBuf_v1 (h1 h2 h3) (X : (⟨S1600000, .i32⟩ : BufTy).Contents (Elt F)) :
    (StableHlo.TRef.of main_v1 h1 h2 h3 : StableHlo.TRef sig ⟨S1600000, .i32⟩).ofBuf X = X := rfl
theorem ofBuf_v13 (h1 h2 h3) (X : (⟨S100000x128, .f32⟩ : BufTy).Contents (Elt F)) :
    (StableHlo.TRef.of main_v13 h1 h2 h3 : StableHlo.TRef sig ⟨S100000x128, .f32⟩).ofBuf X = X := rfl
theorem toBuf_v14 (h1 h2 h3) (X : (⟨S1600000x128, .f32⟩ : BufTy).Contents (Elt F)) :
    (StableHlo.TRef.of main_v14 h1 h2 h3 : StableHlo.TRef sig ⟨S1600000x128, .f32⟩).toBuf X = X := rfl
theorem ofBuf_v26 (h1 h2 h3) (X : (⟨S100000x128, .f32⟩ : BufTy).Contents (Elt F)) :
    (StableHlo.TRef.of main_v26 h1 h2 h3 : StableHlo.TRef sig ⟨S100000x128, .f32⟩).ofBuf X = X := rfl
theorem toBuf_v27 (h1 h2 h3) (X : (⟨S1600000x128, .f32⟩ : BufTy).Contents (Elt F)) :
    (StableHlo.TRef.of main_v27 h1 h2 h3 : StableHlo.TRef sig ⟨S1600000x128, .f32⟩).toBuf X = X := rfl

end Fold

open Fold

/-! ## At the first launch's entry -/

theorem V1_arg0 (c : Dev nD) : V1 m ρ c main_arg0 = (m ((c : Thread nD τ).loc main_arg0)) :=
  W1_keep m ρ c (by decide)
theorem V1_arg2 (c : Dev nD) : V1 m ρ c main_arg2 = (m ((c : Thread nD τ).loc main_arg2)) :=
  W1_keep m ρ c (by decide)
theorem V1_v12 (c : Dev nD) : V1 m ρ c main_v12 = row (m ((c : Thread nD τ).loc main_arg3)) := by
  show W1 m ρ c (Proc.devRef .tc main_v12) = _
  dsimp only [W1, hostOps0]
  after_results_simp
  rfl

/-! ## At the second launch's entry -/

theorem V4_v17 (c : Dev nD) : V4 m ρ c main_v17 = segSum (dstOf (m ((c : Thread nD τ).loc main_arg1))) (takeFill (H0 m ρ c) (srcOf (m ((c : Thread nD τ).loc main_arg1)))) := by
  show W4 m ρ c (Proc.devRef .tc main_v17) = _
  dsimp only [W4, W3, hostOps1_1, hostOps1, main_call0_call0]
  after_results_simp
  rw [W2_v1 m ρ c, W2_v3 m ρ c, show W2 m ρ c (Proc.devRef .tc main_v13) = H0 m ρ c from W2_arr m ρ c 3]
  simp only [ofBuf_toBuf, ofBuf_v1, ofBuf_v13, toBuf_v14]
  simp only [segSum, takeFill, inRows, normIdx, gatherRows]
theorem V4_v13 (c : Dev nD) : V4 m ρ c main_v13 = H0 m ρ c :=
  (W4_W2 m ρ c (by decide) (by decide)).trans (W2_arr m ρ c 3)
theorem V4_v11 (c : Dev nD) : V4 m ρ c main_v11 = invDeg (dstOf (m ((c : Thread nD τ).loc main_arg1))) :=
  W4_v11 m ρ c
theorem V4_arg4 (c : Dev nD) : V4 m ρ c main_arg4 = (m ((c : Thread nD τ).loc main_arg4)) :=
  W4_keep m ρ c (by decide) (by decide) (by decide) (by decide)
theorem V4_v24 (c : Dev nD) : V4 m ρ c main_v24 = row (m ((c : Thread nD τ).loc main_arg5)) := by
  show W4 m ρ c (Proc.devRef .tc main_v24) = _
  dsimp only [W4, W3, hostOps1_1, hostOps1, main_call0_call0]
  after_results_simp
  rw [W2_keep m ρ c (r := main_arg5) (by decide) (by decide)]
  rfl
theorem V4_arg6 (c : Dev nD) : V4 m ρ c main_arg6 = (m ((c : Thread nD τ).loc main_arg6)) :=
  W4_keep m ρ c (by decide) (by decide) (by decide) (by decide)
theorem V4_v23 (c : Dev nD) : V4 m ρ c main_v23 = bnScale (m ((c : Thread nD τ).loc main_arg7)) := by
  show W4 m ρ c (Proc.devRef .tc main_v23) = _
  dsimp only [W4, W3, hostOps1_1, hostOps1, main_call0_call0]
  after_results_simp
  rw [W2_keep m ρ c (r := main_arg7) (by decide) (by decide)]
  rfl
theorem V4_v25 (c : Dev nD) : V4 m ρ c main_v25 = row (m ((c : Thread nD τ).loc main_arg8)) := by
  show W4 m ρ c (Proc.devRef .tc main_v25) = _
  dsimp only [W4, W3, hostOps1_1, hostOps1, main_call0_call0]
  after_results_simp
  rw [W2_keep m ρ c (r := main_arg8) (by decide) (by decide)]
  rfl

/-! ## At the third launch's entry -/

theorem V7_v30 (c : Dev nD) : V7 m ρ c main_v30 = segSum (dstOf (m ((c : Thread nD τ).loc main_arg1))) (takeFill (H1 m ρ c) (srcOf (m ((c : Thread nD τ).loc main_arg1)))) := by
  show W7 m ρ c (Proc.devRef .tc main_v30) = _
  dsimp only [W7, W6, hostOps2_1, hostOps2, main_call1_call0]
  after_results_simp
  rw [W5_v1 m ρ c, W5_v3 m ρ c, show W5 m ρ c (Proc.devRef .tc main_v26) = H1 m ρ c from W5_arr m ρ c 8]
  simp only [ofBuf_toBuf, ofBuf_v1, ofBuf_v26, toBuf_v27]
  simp only [segSum, takeFill, inRows, normIdx, gatherRows]
theorem V7_v26 (c : Dev nD) : V7 m ρ c main_v26 = H1 m ρ c :=
  (W7_W5 m ρ c (by decide) (by decide)).trans (W5_arr m ρ c 8)
theorem V7_v11 (c : Dev nD) : V7 m ρ c main_v11 = invDeg (dstOf (m ((c : Thread nD τ).loc main_arg1))) :=
  (W7_W5 m ρ c (by decide) (by decide)).trans ((W5_arr m ρ c 2).trans
    (((dat1 (V4 m ρ) c).arrAt_in 2 rfl _).trans ((A_eq1 (V4 m ρ) c 2).trans (W4_v11 m ρ c))))
theorem V7_arg9 (c : Dev nD) : V7 m ρ c main_arg9 = (m ((c : Thread nD τ).loc main_arg9)) :=
  W7_keep m ρ c (by decide) (by decide) (by decide) (by decide) (by decide) (by decide) (by decide)
theorem V7_v37 (c : Dev nD) : V7 m ρ c main_v37 = row (m ((c : Thread nD τ).loc main_arg10)) := by
  show W7 m ρ c (Proc.devRef .tc main_v37) = _
  dsimp only [W7, W6, hostOps2_1, hostOps2, main_call1_call0]
  after_results_simp
  rw [W5_keep m ρ c (r := main_arg10) (by decide) (by decide) (by decide) (by decide) (by decide)]
  rfl
theorem V7_arg11 (c : Dev nD) : V7 m ρ c main_arg11 = (m ((c : Thread nD τ).loc main_arg11)) :=
  W7_keep m ρ c (by decide) (by decide) (by decide) (by decide) (by decide) (by decide) (by decide)
theorem V7_v36 (c : Dev nD) : V7 m ρ c main_v36 = bnScale (m ((c : Thread nD τ).loc main_arg12)) := by
  show W7 m ρ c (Proc.devRef .tc main_v36) = _
  dsimp only [W7, W6, hostOps2_1, hostOps2, main_call1_call0]
  after_results_simp
  rw [W5_keep m ρ c (r := main_arg12) (by decide) (by decide) (by decide) (by decide) (by decide)]
  rfl
theorem V7_v38 (c : Dev nD) : V7 m ρ c main_v38 = row (m ((c : Thread nD τ).loc main_arg13)) := by
  show W7 m ρ c (Proc.devRef .tc main_v38) = _
  dsimp only [W7, W6, hostOps2_1, hostOps2, main_call1_call0]
  after_results_simp
  rw [W5_keep m ρ c (r := main_arg13) (by decide) (by decide) (by decide) (by decide) (by decide)]
  rfl
theorem V7_arg14 (c : Dev nD) : V7 m ρ c main_arg14 = (m ((c : Thread nD τ).loc main_arg14)) :=
  W7_keep m ρ c (by decide) (by decide) (by decide) (by decide) (by decide) (by decide) (by decide)
theorem V7_v39 (c : Dev nD) : V7 m ρ c main_v39 = row64 (m ((c : Thread nD τ).loc main_arg15)) := by
  show W7 m ρ c (Proc.devRef .tc main_v39) = _
  dsimp only [W7, W6, hostOps2_1, hostOps2, main_call1_call0]
  after_results_simp
  rw [W5_keep m ρ c (r := main_arg15) (by decide) (by decide) (by decide) (by decide) (by decide)]
  rfl

/-! ## The result buffer -/

/-- The result buffer ends holding what the third launch's write-backs leave. -/
theorem W8_v40 (c : Dev nD) : W8 m ρ c (Proc.devRef .tc main_v40) = (dat2 (V7 m ρ) c).arrAt 10 cfg2.N := W8_arr m ρ c 10

end Cert.KernelIdeal.Layers

end
-- ==== Proof.RefLayer0.lean ====
/-
  The reference's input projection, relu(x @ W + b), read entry by entry: the product's entry is the sum over the 256
  input features, the bias is broadcast along the rows, and relu is the maximum with 0.
-/
import proofs.«420600_j19250043420814_3_alg».proof.Proof.Gen.ReferenceIdeal.Read
import proofs.«420600_j19250043420814_3_alg».proof.Proof.Spec
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.TcCoe Idealize.SL.Sem Idealize.ShloMosaic.ValueIdx

/-- The reference's hidden rows after the input projection are relu(x·W + b), entry by entry. -/
theorem ref_layer0 (x0 : (⟨S100000x256, .f32⟩ : BufTy).Contents (Elt Ideal)) (x2 : (⟨S256x128, .f32⟩ : BufTy).Contents (Elt Ideal)) (x3 : (⟨S128, .f32⟩ : BufTy).Contents (Elt Ideal)) :
    val_main_v8 (F := Ideal) x0 x2 x3 = Cert.Spec.proj (n := 100000) x0 x2 (fun j => x3 (ix1 j)) := by
  funext i
  -- split the index into its row p and its column q
  obtain ⟨p, q, rfl⟩ : ∃ (p : Fin 100000) (q : Fin 128), i = ix2 p q := ⟨i 0, i 1, eq_ix2 i⟩
  -- read relu, the sum, the product's entry and the two broadcasts of the bias at (p, q)
  rw [val_main_v8_apply, val_main_v7_apply, val_main_v4_apply, val_main_v6_apply, val_main_v5_apply,
    val_main_call0_v0_apply, val_main_call0_cst_apply]
  -- the product reads x at (p, k) and W at (k, q); the bias is read at q
  have el : ∀ k : Fin 256, lidx_main_v4 (ix2 p q) k = ix2 p k := fun k =>
    funext fun a => Fin.ext (by match a with | ⟨0, _⟩ => rfl | ⟨1, _⟩ => rfl)
  have er : ∀ k : Fin 256, ridx_main_v4 (ix2 p q) k = ix2 k q := fun k =>
    funext fun a => Fin.ext (by match a with | ⟨0, _⟩ => rfl | ⟨1, _⟩ => rfl)
  have eb : idx_main_v5 (idx_main_v6 (ix2 p q)) = ix1 q :=
    funext fun a => Fin.ext (by match a with | ⟨0, _⟩ => rfl)
  simp only [el, er, eb, Ideal.maximumf_def, Ideal.addf_def, Ideal.ofBits_def, Ideal.ofBits_zero_f32]
  unfold Cert.Spec.proj Cert.Spec.projAt
  rfl

end Cert.ReferenceIdeal.Layers

end
-- ==== Proof.RefLayer1.lean ====
/-
  The reference's first SAGE layer read entry by entry, as a function of the neighbour sums, the node rows and the
  clipped in-degree it computes before it. The reference divides the neighbour sum by the clipped degree and the
  batch-norm weight by √(1 + ε), and adds the bias before the self term; the clipped degree is at least 1 and the square
  root is positive, so each quotient is the product with the reciprocal, and the sum of three terms does not depend on
  their order.
-/
import proofs.«420600_j19250043420814_3_alg».proof.Proof.Gen.ReferenceIdeal.Read
import proofs.«420600_j19250043420814_3_alg».proof.Proof.Spec
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.TcCoe Idealize.SL.Sem Idealize.ShloMosaic.ValueIdx

/-- The clipped in-degree is a maximum with 1, so it is not zero. -/
theorem clipped_degree_ne_zero (x1 : (⟨S2x1600000, .i32⟩ : BufTy).Contents (Elt Ideal)) (j : S100000x1.Idx) :
    val_main_v24 (F := Ideal) x1 j ≠ 0 := by
  rw [val_main_v24_apply, val_main_v23_apply, val_main_cst_3_apply]
  generalize val_main_v22 (F := Ideal) x1 j = d
  rw [Ideal.maximumf_def, Ideal.ofBits_def, Cert.Spec.ofBits_one]
  exact Cert.Spec.max_one_ne_zero d

/-- An entry of the mean over the in-neighbours: the neighbour sum divided by the clipped degree of the row is the sum
    times the degree's reciprocal. -/
theorem mean_at (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (p : Fin 100000) (k : Fin 128) :
    val_main_v26 (F := Ideal) x0 x1 x2 x3 (ix2 p k)
      = val_main_v18 (F := Ideal) x0 x1 x2 x3 (ix2 p k) * Ideal.div 1 (val_main_v24 (F := Ideal) x1 (ix2 p 0)) := by
  have hi : idx_main_v25 (ix2 p k) = ix2 p 0 :=
    funext fun a => Fin.ext (by match a with | ⟨0, _⟩ => rfl | ⟨1, _⟩ => rfl)
  rw [val_main_v26_apply, val_main_v25_apply, hi, Ideal.hostDivf_def]
  exact (Cert.Spec.mul_one_div _ _ (clipped_degree_ne_zero x1 _)).symm

/-- The reference's rows after the first SAGE layer, batch norm and relu: the layer of its neighbour sums, its node rows
    and the reciprocal of its clipped in-degree, with scale γ · (1 / √(1 + ε)). -/
theorem ref_layer1 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 x8 : (⟨S128, .f32⟩ : BufTy).Contents (Elt Ideal)) :
    val_main_v43 (F := Ideal) x0 x1 x2 x3 x4 x5 x6 x7 x8
      = Cert.Spec.sage (n := 100000) (val_main_v18 (F := Ideal) x0 x1 x2 x3) (val_main_v8 (F := Ideal) x0 x2 x3)
          (fun i => Ideal.div 1 (val_main_v24 (F := Ideal) x1 (ix2 i 0))) x4 (fun j => x5 (ix1 j)) x6
          (fun j => x7 (ix1 j) * Ideal.div 1 (Ideal.sqrt (Ideal.ofBits .f32 0x3F800054#32))) (fun j => x8 (ix1 j)) := by
  funext i
  obtain ⟨p, q, rfl⟩ : ∃ (p : Fin 100000) (q : Fin 128), i = ix2 p q := ⟨i 0, i 1, eq_ix2 i⟩
  rw [val_main_v43_apply, val_main_v42_apply, val_main_v39_apply, val_main_v32_apply, val_main_v30_apply,
    val_main_v27_apply, val_main_v29_apply, val_main_v28_apply, val_main_v31_apply]
  rw [val_main_v38_apply, val_main_v37_apply, val_main_v36_apply, val_main_v35_apply, val_main_v34_apply,
    val_main_v33_apply, val_main_cst_4_apply, val_main_v41_apply, val_main_v40_apply, val_main_call1_v0_apply,
    val_main_call1_cst_apply]
  -- the index maps of the two contractions and of the row broadcasts, by coordinates
  have el : ∀ k : Fin 128, lidx_main_v27 (ix2 p q) k = ix2 p k := fun k =>
    funext fun a => Fin.ext (by match a with | ⟨0, _⟩ => rfl | ⟨1, _⟩ => rfl)
  have er : ∀ k : Fin 128, ridx_main_v27 (ix2 p q) k = ix2 k q := fun k =>
    funext fun a => Fin.ext (by match a with | ⟨0, _⟩ => rfl | ⟨1, _⟩ => rfl)
  have el' : ∀ k : Fin 128, lidx_main_v31 (ix2 p q) k = ix2 p k := fun k =>
    funext fun a => Fin.ext (by match a with | ⟨0, _⟩ => rfl | ⟨1, _⟩ => rfl)
  have er' : ∀ k : Fin 128, ridx_main_v31 (ix2 p q) k = ix2 k q := fun k =>
    funext fun a => Fin.ext (by match a with | ⟨0, _⟩ => rfl | ⟨1, _⟩ => rfl)
  have eb : idx_main_v28 (idx_main_v29 (ix2 p q)) = ix1 q :=
    funext fun a => Fin.ext (by match a with | ⟨0, _⟩ => rfl)
  have es : idx_main_v37 (idx_main_v38 (ix2 p q)) = ix1 q :=
    funext fun a => Fin.ext (by match a with | ⟨0, _⟩ => rfl)
  have ebe : idx_main_v40 (idx_main_v41 (ix2 p q)) = ix1 q :=
    funext fun a => Fin.ext (by match a with | ⟨0, _⟩ => rfl)
  -- under the first sum the mean is the neighbour sum times the reciprocal degree
  have hA : (∑ k : Fin 128, val_main_v26 (F := Ideal) x0 x1 x2 x3 (lidx_main_v27 (ix2 p q) k) * x4 (ridx_main_v27 (ix2 p q) k))
      = ∑ k : Fin 128, (val_main_v18 (F := Ideal) x0 x1 x2 x3 (ix2 p k) * Ideal.div 1 (val_main_v24 (F := Ideal) x1 (ix2 p 0))) * x4 (ix2 k q) :=
    Finset.sum_congr rfl fun k _ => by rw [el k, er k, mean_at]
  have hB : (∑ k : Fin 128, val_main_v8 (F := Ideal) x0 x2 x3 (lidx_main_v31 (ix2 p q) k) * x6 (ridx_main_v31 (ix2 p q) k))
      = ∑ k : Fin 128, val_main_v8 (F := Ideal) x0 x2 x3 (ix2 p k) * x6 (ix2 k q) :=
    Finset.sum_congr rfl fun k _ => by rw [el' k, er' k]
  rw [hA, hB, eb, es, ebe]
  -- from here the neighbour sums, the node rows and the clipped degree are arbitrary arrays
  generalize val_main_v18 (F := Ideal) x0 x1 x2 x3 = agg
  generalize val_main_v8 (F := Ideal) x0 x2 x3 = self
  generalize val_main_v24 (F := Ideal) x1 = deg
  simp only [Ideal.maximumf_def, Ideal.addf_def, Ideal.mulf_def, Ideal.hostDivf_def, Ideal.hostUnary_sqrt_def,
    Ideal.ofBits_def]
  -- the zero word is 0; γ / √(1 + ε) = γ · (1 / √(1 + ε)); (A + b) + B = (A + B) + b
  rw [Ideal.ofBits_zero_f32, ← Cert.Spec.mul_one_div _ _ Cert.Spec.sqrt_one_eps_ne_zero, add_right_comm]
  rfl

end Cert.ReferenceIdeal.Layers

end
-- ==== Proof.RefLayer2.lean ====
/-
  The reference's second SAGE layer and output projection read entry by entry, as a function of the neighbour sums, the
  node rows and the clipped in-degree it computes before them; the same two quotients by nonzero numbers and the same
  reordered sum as in the first layer, then the product with the output weights plus the output bias.
-/
import proofs.«420600_j19250043420814_3_alg».proof.Proof.Gen.ReferenceIdeal.Read
import proofs.«420600_j19250043420814_3_alg».proof.Proof.Spec
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.TcCoe Idealize.SL.Sem Idealize.ShloMosaic.ValueIdx

/-! ## Where the reference's index functions land -/

private theorem lidx62_ix (p : Fin 100000) (k k' : Fin 128) : lidx_main_v62 (ix2 p k) k' = ix2 p k' :=
  funext fun a => Fin.ext (by match a with | ⟨0, _⟩ => rfl | ⟨1, _⟩ => rfl)

private theorem ridx62_ix (p : Fin 100000) (k k' : Fin 128) : ridx_main_v62 (ix2 p k) k' = ix2 k' k :=
  funext fun a => Fin.ext (by match a with | ⟨0, _⟩ => rfl | ⟨1, _⟩ => rfl)

private theorem lidx66_ix (p : Fin 100000) (k k' : Fin 128) : lidx_main_v66 (ix2 p k) k' = ix2 p k' :=
  funext fun a => Fin.ext (by match a with | ⟨0, _⟩ => rfl | ⟨1, _⟩ => rfl)

private theorem ridx66_ix (p : Fin 100000) (k k' : Fin 128) : ridx_main_v66 (ix2 p k) k' = ix2 k' k :=
  funext fun a => Fin.ext (by match a with | ⟨0, _⟩ => rfl | ⟨1, _⟩ => rfl)

private theorem idx60_ix (p : Fin 100000) (k : Fin 128) : idx_main_v60 (ix2 p k) = ix2 p 0 :=
  funext fun a => Fin.ext (by match a with | ⟨0, _⟩ => rfl | ⟨1, _⟩ => rfl)

private theorem idx63_ix (p : Fin 100000) (k : Fin 128) : idx_main_v63 (idx_main_v64 (ix2 p k)) = ix1 k :=
  funext fun a => Fin.ext (by match a with | ⟨0, _⟩ => rfl)

private theorem idx72_ix (p : Fin 100000) (k : Fin 128) : idx_main_v72 (idx_main_v73 (ix2 p k)) = ix1 k :=
  funext fun a => Fin.ext (by match a with | ⟨0, _⟩ => rfl)

private theorem idx75_ix (p : Fin 100000) (k : Fin 128) : idx_main_v75 (idx_main_v76 (ix2 p k)) = ix1 k :=
  funext fun a => Fin.ext (by match a with | ⟨0, _⟩ => rfl)

private theorem lidx79_ix (p : Fin 100000) (q : Fin 64) (k : Fin 128) : lidx_main_v79 (ix2 p q) k = ix2 p k :=
  funext fun a => Fin.ext (by match a with | ⟨0, _⟩ => rfl | ⟨1, _⟩ => rfl)

private theorem ridx79_ix (p : Fin 100000) (q : Fin 64) (k : Fin 128) : ridx_main_v79 (ix2 p q) k = ix2 k q :=
  funext fun a => Fin.ext (by match a with | ⟨0, _⟩ => rfl | ⟨1, _⟩ => rfl)

private theorem idx80_ix (p : Fin 100000) (q : Fin 64) : idx_main_v80 (idx_main_v81 (ix2 p q)) = ix1 q :=
  funext fun a => Fin.ext (by match a with | ⟨0, _⟩ => rfl)

/-! ## The two divisors are not zero -/

/-- The clipped in-degree is a maximum with 1, so it is not zero. -/
private theorem clipped_degree_ne_zero (x1 : (⟨S2x1600000, .i32⟩ : BufTy).Contents (Elt Ideal)) (p : Fin 100000) :
    val_main_v59 (F := Ideal) x1 (ix2 p 0) ≠ 0 := by
  rw [val_main_v59_apply, val_main_v58_apply, val_main_cst_10_apply]
  simp only [Ideal.maximumf_def, Ideal.ofBits_def]
  rw [Cert.Spec.ofBits_one]
  exact Cert.Spec.max_one_ne_zero _

/-! ## The two sums of the layer, term by term -/

/-- The neighbour term: each quotient by the clipped degree is the product with its reciprocal. -/
private theorem neighbour_sum (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 x8 : (⟨S128, .f32⟩ : BufTy).Contents (Elt Ideal)) (x9 : (⟨S128x128, .f32⟩ : BufTy).Contents (Elt Ideal)) (p : Fin 100000) (k : Fin 128) :
    (∑ k' : Fin 128, val_main_v61 (F := Ideal) x0 x1 x2 x3 x4 x5 x6 x7 x8 (lidx_main_v62 (ix2 p k) k') * x9 (ridx_main_v62 (ix2 p k) k'))
      = ∑ k' : Fin 128, (val_main_v53 (F := Ideal) x0 x1 x2 x3 x4 x5 x6 x7 x8 (ix2 p k') * Ideal.div 1 (val_main_v59 (F := Ideal) x1 (ix2 p 0))) * x9 (ix2 k' k) := by
  refine Finset.sum_congr rfl fun k' _ => ?_
  rw [lidx62_ix, ridx62_ix, val_main_v61_apply, val_main_v60_apply, idx60_ix, Ideal.hostDivf_def,
    Cert.Spec.mul_one_div _ _ (clipped_degree_ne_zero x1 p)]

/-- The self term, at the coordinates. -/
private theorem self_sum (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 x8 : (⟨S128, .f32⟩ : BufTy).Contents (Elt Ideal)) (x11 : (⟨S128x128, .f32⟩ : BufTy).Contents (Elt Ideal)) (p : Fin 100000) (k : Fin 128) :
    (∑ k' : Fin 128, val_main_v43 (F := Ideal) x0 x1 x2 x3 x4 x5 x6 x7 x8 (lidx_main_v66 (ix2 p k) k') * x11 (ridx_main_v66 (ix2 p k) k'))
      = ∑ k' : Fin 128, val_main_v43 (F := Ideal) x0 x1 x2 x3 x4 x5 x6 x7 x8 (ix2 p k') * x11 (ix2 k' k) := by
  refine Finset.sum_congr rfl fun k' _ => ?_
  rw [lidx66_ix, ridx66_ix]

/-! ## One entry of the hidden layer -/

/-- The entry (p, k) of the reference's rows after the second layer, batch norm and relu: the quotient of the neighbour
    sum by the clipped degree is its product with the reciprocal, the quotient of γ by √(1 + ε) likewise, and the left
    bias moves past the second sum. -/
private theorem layer2_at (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 : (⟨S128, .f32⟩ : BufTy).Contents (Elt Ideal)) (p : Fin 100000) (k : Fin 128) :
    val_main_v78 (F := Ideal) x0 x1 x2 x3 x4 x5 x6 x7 x8 x9 x10 x11 x12 x13 (ix2 p k)
      = Cert.Spec.sageAt (fun k' => val_main_v53 (F := Ideal) x0 x1 x2 x3 x4 x5 x6 x7 x8 (ix2 p k'))
          (fun k' => val_main_v43 (F := Ideal) x0 x1 x2 x3 x4 x5 x6 x7 x8 (ix2 p k'))
          (Ideal.div 1 (val_main_v59 (F := Ideal) x1 (ix2 p 0))) x9 (fun j => x10 (ix1 j)) x11
          (fun j => x12 (ix1 j) * Ideal.div 1 (Ideal.sqrt (Ideal.ofBits .f32 0x3F800054#32))) (fun j => x13 (ix1 j)) k := by
  rw [val_main_v78_apply, val_main_v77_apply, val_main_v74_apply, val_main_v67_apply, val_main_v65_apply,
    val_main_v62_apply, val_main_v64_apply, val_main_v63_apply, val_main_v66_apply, val_main_v73_apply,
    val_main_v72_apply, val_main_v71_apply, val_main_v70_apply, val_main_v69_apply, val_main_v68_apply,
    val_main_cst_11_apply, val_main_v76_apply, val_main_v75_apply, val_main_call2_v0_apply,
    val_main_call2_cst_apply, idx63_ix, idx72_ix, idx75_ix, neighbour_sum, self_sum]
  simp only [Ideal.maximumf_def, Ideal.addf_def, Ideal.mulf_def, Ideal.hostDivf_def, Ideal.hostUnary_sqrt_def,
    Ideal.ofBits_def, Ideal.ofBits_zero_f32]
  unfold Cert.Spec.sageAt
  beta_reduce
  rw [Cert.Spec.mul_one_div (x12 (ix1 k)) _ Cert.Spec.sqrt_one_eps_ne_zero, add_right_comm]

/-! ## The output projection over the layer -/

/-- The specification's last stage at the coordinates (p, q). -/
private theorem sageOut_at (agg self : Cert.Spec.Mat 100000 128) (r : Fin 100000 → EReal) (wl : Cert.Spec.Mat 128 128) (bl : Fin 128 → EReal)
    (wr : Cert.Spec.Mat 128 128) (s be : Fin 128 → EReal) (wo : Cert.Spec.Mat 128 64) (bo : Fin 64 → EReal) (p : Fin 100000) (q : Fin 64) :
    Cert.Spec.sageOut agg self r wl bl wr s be wo bo (ix2 p q)
      = Cert.Spec.outAt (fun k => Cert.Spec.sageAt (fun k' => agg (ix2 p k')) (fun k' => self (ix2 p k')) (r p) wl bl wr s be k) wo bo q := rfl

/-- The reference's result: the second SAGE layer and the output projection of its second neighbour sums, its rows after
    the first layer and the reciprocal of its clipped in-degree, with scale γ · (1 / √(1 + ε)). -/
theorem ref_layer2 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 : (⟨S128, .f32⟩ : BufTy).Contents (Elt Ideal)) (x14 : (⟨S128x64, .f32⟩ : BufTy).Contents (Elt Ideal)) (x15 : (⟨S64, .f32⟩ : BufTy).Contents (Elt Ideal)) :
    val_main_v82 (F := Ideal) x0 x1 x2 x3 x4 x5 x6 x7 x8 x9 x10 x11 x12 x13 x14 x15
      = Cert.Spec.sageOut (n := 100000) (val_main_v53 (F := Ideal) x0 x1 x2 x3 x4 x5 x6 x7 x8) (val_main_v43 (F := Ideal) x0 x1 x2 x3 x4 x5 x6 x7 x8)
          (fun i => Ideal.div 1 (val_main_v59 (F := Ideal) x1 (ix2 i 0))) x9 (fun j => x10 (ix1 j)) x11
          (fun j => x12 (ix1 j) * Ideal.div 1 (Ideal.sqrt (Ideal.ofBits .f32 0x3F800054#32))) (fun j => x13 (ix1 j))
          x14 (fun j => x15 (ix1 j)) := by
  funext i
  obtain ⟨p, q, rfl⟩ : ∃ (p : Fin 100000) (q : Fin 64), i = ix2 p q := ⟨i 0, i 1, eq_ix2 i⟩
  rw [val_main_v82_apply, val_main_v79_apply, val_main_v81_apply, val_main_v80_apply, idx80_ix, Ideal.addf_def, sageOut_at]
  unfold Cert.Spec.outAt
  beta_reduce
  refine congrArg (fun t => t + x15 (ix1 q)) (Finset.sum_congr rfl fun k _ => ?_)
  rw [lidx79_ix, ridx79_ix, layer2_at]

end Cert.ReferenceIdeal.Layers

end
-- ==== Proof.SourceRange.lean ====
/-
  What the precondition says about the edge list: every source node index, row 0 of the edge list, lies in [0, 100000).
  The precondition is a conjunction of "all" reductions; its last two conjuncts compare row 0 of the edge list, as signed
  32-bit words, with 0 from below and with 100000 from above. A word that is non-negative as a signed number and below
  100000 reads the same unsigned, so its unsigned value is below 100000.
-/
import proofs.«420600_j19250043420814_3_alg».proof.Defs
import proofs.«420600_j19250043420814_3_alg».proof.Proof.Gen.Pre_finite_inputs
import proofs.«420600_j19250043420814_3_alg».proof.Proof.KernelGlue
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Layers

open Cert.KernelIdeal Cert.KernelIdeal.Glue Idealize.ShloMosaic Idealize.ShloMosaic.TcCoe Idealize.SL.Sem Idealize.ShloMosaic.ValueIdx

/-- A 32-bit word that is at least 0 and below 100000, both read signed, is below 100000 read unsigned: being
    non-negative signed, its top bit is clear, so its signed and unsigned readings agree. -/
private theorem toNat_lt_of_signed_range (w : BitVec 32) (h0 : IntOp.cmpi .sge w 0#32 = 1#1)
    (h1 : IntOp.cmpi .slt w 100000#32 = 1#1) : w.toNat < 100000 := by
  rw [IntOp.cmpi_sge, show (0#32 : BitVec 32).toInt = 0 from by decide] at h0
  rw [IntOp.cmpi_slt, show (100000#32 : BitVec 32).toInt = 100000 from by decide] at h1
  have htop : 2 * w.toNat < 2 ^ 32 := BitVec.toInt_pos_iff.1 h0
  have hsame : w.toInt = w.toNat := StableHlo.Predicate.toInt_eq_toNat_of_lt (by omega)
  omega

/-- Under the precondition every edge's source index is a node: as an unsigned word it is below 100000. -/
theorem src_lt (m : (ℓ : Loc nD τ sig) → Buf (Elt Ideal) ℓ) (h : Cert.Pre_KernelIdeal m) (c : Dev nD) (e : Fin 1600000) :
    (srcOf (F := Ideal) (m ((c.tc : Thread nD τ).loc main_arg1)) (ix1 e)).toNat < 100000 := by
  -- the scalar shape has one index, so an "all" into a scalar speaks of every element
  haveI : Subsingleton (⟨0, ![]⟩ : Shape).Idx := ⟨fun a b => funext fun d => d.elim0⟩
  -- the precondition at this device, read at the scalar result's one index
  have e0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at e0
  -- the conjunction is ((earlier conjuncts ∧ all (row 0 ≥ 0)) ∧ all (row 0 < 100000))
  obtain ⟨e1, hhi⟩ := IntOp.andi_eq_one.1 e0
  obtain ⟨-, hlo⟩ := IntOp.andi_eq_one.1 e1
  -- each "all" holds at edge e
  have lo := Host.reduce_andi_all _ _ _ _ _ hlo (ix1 e)
  have hi := Host.reduce_andi_all _ _ _ _ _ hhi (ix1 e)
  exact toNat_lt_of_signed_range _ lo hi

end Cert.KernelIdeal.Layers

end
-- ==== Proof.TakeRows.lean ====
/-
  The kernel gathers rows with an out-of-range fill: it counts a negative index from the end, gathers the row at the
  (clamped) index, and replaces the row by the fill word wherever the index is not in [0, 99999]. When every index is
  already in [0, 100000) nothing is counted from the end, every index passes the range test, and the result is the plain
  gather.
-/
import proofs.«420600_j19250043420814_3_alg».proof.Proof.KernelGlue
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Layers

open Cert.KernelIdeal Cert.KernelIdeal.Gen Cert.KernelIdeal.Glue Idealize.ShloMosaic Idealize.ShloMosaic.ValueIdx

variable {F : FTy → Type} [FloatOps F]

/-- A left fold by `and` that starts at 1 and meets only 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, hl => by
    have e : IntOp.andi 1#1 1#1 = 1#1 := by decide
    rw [List.foldl_cons, hl a List.mem_cons_self, e]
    exact foldl_andi_one f l fun n hn => hl n (List.mem_cons_of_mem _ hn)

/-- A reduction by `and` from 1 of a mask that is 1 everywhere is 1 everywhere. -/
theorem reduce_andi_one {s t u : Shape} {axes : List (Fin s.rank)} (x : s.Idx → BitVec 1) (init : u.Idx → BitVec 1)
    (hr : s.ReducesTo axes t) (hu : 0 < u.numel) (hi : init (Shape.Idx.first hu) = 1#1) (hx : ∀ i, x i = 1#1) (j : t.Idx) :
    Host.reduce IntOp.andi x init hr hu j = 1#1 := by
  rw [Host.reduce_eq_foldl, hi]
  exact foldl_andi_one x _ fun n _ => hx n

/-- An index word below 100000 is not negative, so counting from the end leaves it alone: the start index of edge
    `e` is the word `s e` itself. -/
theorem normIdx_apply (s : (⟨S1600000, .i32⟩ : BufTy).Contents (Elt F))
    (hs : ∀ e : Fin 1600000, (s (ix1 e)).toNat < 100000) (e : Fin 1600000) (z : Fin 1) :
    normIdx s (ix2 e z) = s (ix1 e) := by
  unfold normIdx
  rw [broadcastInDim_apply (s := S1600000) (t := S1600000x1) ![0] bcast_S1600000_S1600000x1_0 _ (ix2 e z) (ix1 e) (by
    intro a
    have ha : a = 0 := Subsingleton.elim _ _
    subst ha
    rfl)]
  rw [ValueIdx.select_apply]
  have h0 : IntOp.cmpi .slt (s (ix1 e)) 0#32 = 0#1 := by
    refine eq_zero_of_ne_one fun h1 => ?_
    have := (StableHlo.Predicate.slt_iff_toNat (by have := hs e; omega) (by decide)).1 h1
    simp at this
  show Scalar.select (IntOp.cmpi .slt (s (ix1 e)) 0#32) _ _ = _
  rw [h0, select_zero]

/-- Every start index then names a row: the range test 0 ≤ i ∧ i ≤ 99999 holds at every edge. -/
theorem inRows_normIdx (s : (⟨S1600000, .i32⟩ : BufTy).Contents (Elt F))
    (hs : ∀ e : Fin 1600000, (s (ix1 e)).toNat < 100000) (k : S1600000.Idx) :
    inRows (normIdx s) k = 1#1 := by
  unfold inRows
  refine reduce_andi_one _ _ _ _ rfl (fun i => ?_) k
  obtain ⟨e, z, rfl⟩ : ∃ (e : Fin 1600000) (z : Fin 1), i = ix2 e z := ⟨i 0, i 1, eq_ix2 i⟩
  show IntOp.andi (IntOp.cmpi .sge (normIdx s (ix2 e z)) 0#32) (IntOp.cmpi .sle (normIdx s (ix2 e z)) 99999#32) = 1#1
  have hw := hs e
  rw [normIdx_apply s hs e z,
    (StableHlo.Predicate.sge_iff_toNat (by omega) (by decide)).2 (by simp),
    (StableHlo.Predicate.sle_iff_toNat (by omega) (by decide)).2 (by
      show (s (ix1 e)).toNat ≤ 99999
      omega)]
  decide

/-- With every index a node (below 100000 as an unsigned word) the filled gather is the plain gather. -/
theorem takeFill_eq (h : (⟨S100000x128, .f32⟩ : BufTy).Contents (Elt F)) (s : (⟨S1600000, .i32⟩ : BufTy).Contents (Elt F))
    (hs : ∀ e : Fin 1600000, (s (ix1 e)).toNat < 100000) :
    takeFill h s = gatherRows h (normIdx s) := by
  funext i
  unfold takeFill
  rw [ValueIdx.select_apply]
  have hm : broadcastInDim S1600000x128 ![0] bcast_S1600000_S1600000x128_0 (inRows (normIdx s)) i = 1#1 := by
    unfold broadcastInDim
    exact inRows_normIdx s hs _
  rw [hm, select_one]

end Cert.KernelIdeal.Layers

end
-- ==== Proof.Rows.lean ====
/-
  Three host values of the kernel's program read at an entry: a length-n vector laid out as a 1 × n row holds the vector's
  entry j at (0, j); the batch-norm scale row holds γ_j · (1 / √(1 + ε)); the reciprocal degree column holds
  1 / max(deg_i, 1) at (i, 0). The constant 1 is the word 0x3F800000.
-/
import proofs.«420600_j19250043420814_3_alg».proof.Proof.KernelGlue
import proofs.«420600_j19250043420814_3_alg».proof.Proof.Spec
import Idealize.ShloMosaic.Lib.Pipeline.Value
import Idealize.ShloMosaic.Lib.ValueIdx
import Idealize.ShloMosaic.Lib.IdealHost

noncomputable section

namespace Cert.KernelIdeal.Layers

open Cert.KernelIdeal Cert.KernelIdeal.Gen Cert.KernelIdeal.Glue Idealize.ShloMosaic Idealize.ShloMosaic.ValueIdx

/-- A length-128 vector as a 1 × 128 row, at (0, j), is the vector at j. -/
theorem row_apply (b : (⟨S128, .f32⟩ : BufTy).Contents (Elt Ideal)) (j : Fin 128) : row (F := Ideal) b (ix2 0 j) = b (ix1 j) := by
  unfold row
  refine (shapeCast_addUnit_apply (α := EReal) ![128] b shapeCasts_S128_S1x128 (ix2 0 j)).trans ?_
  refine congrArg b (funext fun a => ?_)
  match a with
  | ⟨0, _⟩ => rfl

/-- A length-64 vector as a 1 × 64 row, at (0, j), is the vector at j. -/
theorem row64_apply (b : (⟨S64, .f32⟩ : BufTy).Contents (Elt Ideal)) (j : Fin 64) : row64 (F := Ideal) b (ix2 0 j) = b (ix1 j) := by
  unfold row64
  refine (shapeCast_addUnit_apply (α := EReal) ![64] b shapeCasts_S64_S1x64 (ix2 0 j)).trans ?_
  refine congrArg b (funext fun a => ?_)
  match a with
  | ⟨0, _⟩ => rfl

/-- The batch-norm scale row at (0, j) is γ_j · (1 / √(1 + ε)). -/
theorem bnScale_apply (g : (⟨S128, .f32⟩ : BufTy).Contents (Elt Ideal)) (j : Fin 128) :
    bnScale (F := Ideal) g (ix2 0 j) = g (ix1 j) * Ideal.div 1 (Ideal.sqrt (Ideal.ofBits .f32 0x3F800054#32)) := by
  unfold bnScale
  rw [row_apply]
  show g (ix1 j) * Ideal.div (Ideal.ofBits .f32 0x3F800000#32) (Ideal.sqrt (Ideal.ofBits .f32 0x3F800054#32)) = _
  rw [Cert.Spec.ofBits_one]

/-- The reciprocal degree column at (i, 0) is 1 / max(deg_i, 1). -/
theorem invDeg_apply (d : (⟨S1600000, .i32⟩ : BufTy).Contents (Elt Ideal)) (i : Fin 100000) :
    invDeg (F := Ideal) d (ix2 i 0) = Ideal.div 1 (degMax (F := Ideal) d (ix2 i 0)) := by
  unfold invDeg
  rw [hostDivf_apply, broadcastInDim_scalar_apply, constant_apply, Cert.Spec.ofBits_one]

end Cert.KernelIdeal.Layers

end
-- ==== Proof.Bridge.lean ====
/-
  The two programs compute one function of the arguments.

  Layer by layer: the first launch leaves relu(x·W + b), which is the reference's projection. Under the precondition every
  edge's source is a node, so the kernel's filled row gather is the plain gather the reference uses; the per-destination
  sums, the clipped in-degree and the index arithmetic are the same host operations in both programs. The second launch
  then leaves the SAGE layer of (those sums, those rows, the reciprocal clipped degree), which is what the reference's
  first layer is once its two quotients by nonzero numbers are written as products with reciprocals; and the same again
  for the third launch, with the output projection on top.
-/
import proofs.«420600_j19250043420814_3_alg».proof.Proof.Region0
import proofs.«420600_j19250043420814_3_alg».proof.Proof.Region1
import proofs.«420600_j19250043420814_3_alg».proof.Proof.Region2
import proofs.«420600_j19250043420814_3_alg».proof.Proof.KernelFold
import proofs.«420600_j19250043420814_3_alg».proof.Proof.RefLayer0
import proofs.«420600_j19250043420814_3_alg».proof.Proof.RefLayer1
import proofs.«420600_j19250043420814_3_alg».proof.Proof.RefLayer2
import proofs.«420600_j19250043420814_3_alg».proof.Proof.SourceRange
import proofs.«420600_j19250043420814_3_alg».proof.Proof.TakeRows
import proofs.«420600_j19250043420814_3_alg».proof.Proof.Rows

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Glue Cert.KernelIdeal.Layers
open Cert.ReferenceIdeal.Read Cert.ReferenceIdeal.Layers

/-! ## The host operations between the launches are the reference's own -/

/-- Summing, over each destination node, the rows of `h` gathered at every edge's source: the reference's first
    neighbour sum when `h` is its projected rows. The two programs print the same operations on the same index lists. -/
theorem agg1_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) :
    segSum (F := Ideal) (dstOf x1) (gatherRows (val_main_v8 (F := Ideal) x0 x2 x3) (normIdx (srcOf x1)))
      = val_main_v18 (F := Ideal) x0 x1 x2 x3 := rfl

/-- The same for the second neighbour sum, of the rows after the first layer. -/
theorem agg2_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 x8 : (⟨S128, .f32⟩ : BufTy).Contents (Elt Ideal)) :
    segSum (F := Ideal) (dstOf x1) (gatherRows (val_main_v43 (F := Ideal) x0 x1 x2 x3 x4 x5 x6 x7 x8) (normIdx (srcOf x1)))
      = val_main_v53 (F := Ideal) x0 x1 x2 x3 x4 x5 x6 x7 x8 := rfl

/-- The clipped in-degree is the reference's, in its first layer … -/
theorem degMax_eq1 (x1 : (⟨S2x1600000, .i32⟩ : BufTy).Contents (Elt Ideal)) : degMax (F := Ideal) (dstOf x1) = val_main_v24 (F := Ideal) x1 := rfl
/-- … and in its second. -/
theorem degMax_eq2 (x1 : (⟨S2x1600000, .i32⟩ : BufTy).Contents (Elt Ideal)) : degMax (F := Ideal) (dstOf x1) = val_main_v59 (F := Ideal) x1 := rfl

/-! ## Equal arguments, equal layers -/

open Cert.Spec in
theorem proj_congr {n : Nat} {x x' : Mat n 256} {w w' : Mat 256 128} {b b' : Fin 128 → EReal}
    (h1 : x = x') (h2 : w = w') (h3 : b = b') : proj x w b = proj x' w' b' := by
  subst h1 h2 h3; rfl

open Cert.Spec in
theorem sage_congr {n : Nat} {agg agg' self self' : Mat n 128} {r r' : Fin n → EReal} {wl wl' : Mat 128 128}
    {bl bl' : Fin 128 → EReal} {wr wr' : Mat 128 128} {s s' be be' : Fin 128 → EReal}
    (h1 : agg = agg') (h2 : self = self') (h3 : r = r') (h4 : wl = wl') (h5 : bl = bl') (h6 : wr = wr') (h7 : s = s')
    (h8 : be = be') : sage agg self r wl bl wr s be = sage agg' self' r' wl' bl' wr' s' be' := by
  subst h1 h2 h3 h4 h5 h6 h7 h8; rfl

open Cert.Spec in
theorem sageOut_congr {n : Nat} {agg agg' self self' : Mat n 128} {r r' : Fin n → EReal} {wl wl' : Mat 128 128}
    {bl bl' : Fin 128 → EReal} {wr wr' : Mat 128 128} {s s' be be' : Fin 128 → EReal} {wo wo' : Mat 128 64} {bo bo' : Fin 64 → EReal}
    (h1 : agg = agg') (h2 : self = self') (h3 : r = r') (h4 : wl = wl') (h5 : bl = bl') (h6 : wr = wr') (h7 : s = s')
    (h8 : be = be') (h9 : wo = wo') (h10 : bo = bo') :
    sageOut agg self r wl bl wr s be wo bo = sageOut agg' self' r' wl' bl' wr' s' be' wo' bo' := by
  subst h1 h2 h3 h4 h5 h6 h7 h8 h9 h10; rfl

/-! ## The three layers -/

variable (m : (ℓ : Loc nD τ sig) → Buf (Elt Ideal) ℓ) (ρ : Dev nD → PrngReg)

/-- After the first launch the node rows are the reference's projected rows. -/
theorem H0_eq (c : Dev nD) :
    H0 m ρ c = val_main_v8 (F := Ideal) (m ((c.tc : Thread nD τ).loc main_arg0)) (m ((c.tc : Thread nD τ).loc main_arg2)) (m ((c.tc : Thread nD τ).loc main_arg3)) := by
  show (dat0 (F := Ideal) (V1 m ρ) c).arrAt 3 cfg0.N = _
  refine (region0_value (V1 m ρ) c).trans ?_
  refine Eq.trans ?_ (ref_layer0 _ _ _).symm
  refine proj_congr ?_ ?_ ?_
  · exact V1_arg0 m ρ c
  · exact V1_arg2 m ρ c
  · funext j; rw [V1_v12 m ρ c, row_apply]

/-- After the second launch the node rows are the reference's rows after its first layer. -/
theorem H1_eq (hpre : Cert.Pre_KernelIdeal m) (c : Dev nD) :
    H1 m ρ c = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show (dat1 (F := Ideal) (V4 m ρ) c).arrAt 8 cfg1.N = _
  refine (region1_value (V4 m ρ) c).trans ?_
  refine Eq.trans ?_ (ref_layer1 _ _ _ _ _ _ _ _ _).symm
  refine sage_congr ?_ ?_ ?_ ?_ ?_ ?_ ?_ ?_
  · rw [V4_v17 m ρ c, takeFill_eq _ _ (src_lt m hpre c), H0_eq m ρ c]
    exact agg1_eq _ _ _ _
  · rw [V4_v13 m ρ c]; exact H0_eq m ρ c
  · funext i; rw [V4_v11 m ρ c, invDeg_apply, degMax_eq1]
  · exact V4_arg4 m ρ c
  · funext j; rw [V4_v24 m ρ c, row_apply]
  · exact V4_arg6 m ρ c
  · funext j; rw [V4_v23 m ρ c, bnScale_apply]
  · funext j; rw [V4_v25 m ρ c, row_apply]

/-- The result buffer ends holding the reference's result. -/
theorem result_eq (hpre : Cert.Pre_KernelIdeal m) (c : Dev nD) :
    W8 m ρ c (Proc.devRef .tc main_v40)
      = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W8_v40 m ρ c).trans ?_
  refine (region2_value (V7 m ρ) c).trans ?_
  refine Eq.trans ?_ (ref_layer2 _ _ _ _ _ _ _ _ _ _ _ _ _ _ _ _).symm
  refine sageOut_congr ?_ ?_ ?_ ?_ ?_ ?_ ?_ ?_ ?_ ?_
  · rw [V7_v30 m ρ c, takeFill_eq _ _ (src_lt m hpre c), H1_eq m ρ hpre c]
    exact agg2_eq _ _ _ _ _ _ _ _ _
  · rw [V7_v26 m ρ c]; exact H1_eq m ρ hpre c
  · funext i; rw [V7_v11 m ρ c, invDeg_apply, degMax_eq2]
  · exact V7_arg9 m ρ c
  · funext j; rw [V7_v37 m ρ c, row_apply]
  · exact V7_arg11 m ρ c
  · funext j; rw [V7_v36 m ρ c, bnScale_apply]
  · funext j; rw [V7_v38 m ρ c, row_apply]
  · exact V7_arg14 m ρ c
  · funext j; rw [V7_v39 m ρ c, row64_apply]

end Cert.Bridge

end
-- ==== Proof.lean ====
/-
  A three-launch GraphSAGE forward pass against its plain reference, on the extended reals.

  Both programs compute, for every node, relu(x·W + b); then twice a SAGE layer — the sum of the in-neighbours' rows
  scaled by 1 / max(deg, 1), times W_l, plus the node's own row times W_r, plus a bias, then batch norm in evaluation mode
  (scale γ / √(1 + ε), shift β) and relu — and finally an output projection. The kernel runs the three dense stages as
  launches over blocks of 1000 nodes and leaves the gathers and per-destination sums to host operations; it multiplies by
  the reciprocals 1 / max(deg, 1) and 1 / √(1 + ε) where the reference divides, and adds the layer's three terms in another
  order. On the extended reals a quotient by a nonzero number is the product with its reciprocal, and max(deg, 1) ≥ 1 and
  √(1 + ε) > 0 are never zero; addition is commutative and associative. The kernel's row gather fills rows whose index
  is out of range, where the reference's gather clamps; the precondition keeps every source index inside [0, 100000), where
  the two gathers agree.

  The three frames are the generated ones (the reference's is its generated run with the result dropped); the ideal pass
  recorded no rewrite, so `preserves` is `True`; `algebraic` joins the kernel's run, read at its result buffer, to the
  reference's run by `Cert.Bridge.result_eq`.
-/
import proofs.«420600_j19250043420814_3_alg».proof.Defs
import proofs.«420600_j19250043420814_3_alg».proof.Proof.Gen.Kernel
import proofs.«420600_j19250043420814_3_alg».proof.Proof.Gen.Kernel.Skeleton
import proofs.«420600_j19250043420814_3_alg».proof.Proof.Gen.Kernel.Launch
import proofs.«420600_j19250043420814_3_alg».proof.Proof.Gen.Kernel.Points
import proofs.«420600_j19250043420814_3_alg».proof.Proof.Gen.Kernel.Frame
import proofs.«420600_j19250043420814_3_alg».proof.Proof.Gen.KernelIdeal
import proofs.«420600_j19250043420814_3_alg».proof.Proof.Gen.KernelIdeal.Skeleton
import proofs.«420600_j19250043420814_3_alg».proof.Proof.Gen.KernelIdeal.Launch
import proofs.«420600_j19250043420814_3_alg».proof.Proof.Gen.KernelIdeal.Points
import proofs.«420600_j19250043420814_3_alg».proof.Proof.Gen.KernelIdeal.Frame
import proofs.«420600_j19250043420814_3_alg».proof.Proof.Gen.ReferenceIdeal
import proofs.«420600_j19250043420814_3_alg».proof.Proof.Gen.Pre_finite_inputs
import proofs.«420600_j19250043420814_3_alg».proof.Proof.Gen.ReferenceIdeal.Run
import proofs.«420600_j19250043420814_3_alg».proof.Proof.Gen.ReferenceIdeal.Read
import proofs.«420600_j19250043420814_3_alg».proof.Proof.KernelRun
import proofs.«420600_j19250043420814_3_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories that agree on the arguments, under the precondition, the kernel's result buffer ends at what its third
    launch writes back and the reference's at its composed term of the arguments: one function of the arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v40), Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq]
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.Bridge.result_eq m ρ hpre c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
